-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S3200000 : Shape := ⟨1, ![3200000]⟩
abbrev S256x64 : Shape := ⟨2, ![256, 64]⟩
abbrev S64 : Shape := ⟨1, ![64]⟩
abbrev S64x40 : Shape := ⟨2, ![64, 40]⟩
abbrev S40 : Shape := ⟨1, ![40]⟩
abbrev S_ : Shape := ⟨0, ![]⟩
abbrev S1x3200000 : Shape := ⟨2, ![1, 3200000]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_
  slices_S2x3200000_S1x3200000_0_0 : S2x3200000.Slices ![0, 0] S1x3200000
  shapeCasts_S1x3200000_S3200000 : S1x3200000.ShapeCasts S3200000

variable [Facts]

def fn_part2 {F : FTy → Type} [FloatOps F] (main_v28 : IVec S_ 1) (main_v32 : IVec S3200000 1) (main_v34 : IVec S3200000 32) : IVec S_ 1 :=
  let main_c_11 : IVec S_ 32 := constantI S_ 32 100000#32
  let main_v35 : IVec S3200000 32 := broadcastInDim S3200000 ![] bcast_S_S3200000 main_c_11
  let main_v36 : IVec S3200000 1 := cmpi .slt main_v34 main_v35
  let main_v37 : IVec S3200000 1 := andi main_v32 main_v36
  let main_c_12 : IVec S_ 1 := constantI S_ 1 1#1
  let main_v38 : IVec S_ 1 := (fun x v => Host.reduce IntOp.andi x v reducesTo_S3200000_S_d0 h_S_) main_v37 main_c_12
  let main_v39 : IVec S_ 1 := andi main_v28 main_v38
  main_v39

def fn_part1 {F : FTy → Type} [FloatOps F] (main_arg1 : IVec S2x3200000 32) (main_arg5 : FVec F S64x40 .f32) (main_arg6 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x40 .f32 := Host.absf main_arg5
  let main_cst_6 : FVec F S_ .f32 := constant S_ .f32 0x7F800000#32
  let main_v20 : FVec F S64x40 .f32 := broadcastInDim S64x40 ![] bcast_S_S64x40 main_cst_6
  let main_v21 : IVec S64x40 1 := cmpf .olt main_v19 main_v20
  let main_c_7 : IVec S_ 1 := constantI S_ 1 1#1
  let main_v22 : IVec S_ 1 := (fun x v => Host.reduce IntOp.andi x v reducesTo_S64x40_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  let main_v29 : IVec S1x3200000 32 := (extractStridedSlice S1x3200000 ![0, 0] · slices_S2x3200000_S1x3200000_0_0) main_arg1
  let main_v30 : IVec S3200000 32 := shapeCast S3200000 main_v29 shapeCasts_S1x3200000_S3200000
  let main_c_10 : IVec S_ 32 := constantI S_ 32 0#32
  let main_v31 : IVec S3200000 32 := broadcastInDim S3200000 ![] bcast_S_S3200000 main_c_10
  let main_v32 : IVec S3200000 1 := cmpi .sge main_v30 main_v31
  let main_v33 : IVec S1x3200000 32 := (extractStridedSlice S1x3200000 ![0, 0] · slices_S2x3200000_S1x3200000_0_0) main_arg1
  let main_v34 : IVec S3200000 32 := shapeCast S3200000 main_v33 shapeCasts_S1x3200000_S3200000
  fn_part2 (F := F) main_v28 main_v32 main_v34

def fn {F : FTy → Type} [FloatOps F] (main_arg0 : FVec F S100000x256 .f32) (main_arg1 : IVec S2x3200000 32) (main_arg2 : FVec F S3200000 .f32) (main_arg3 : FVec F S256x64 .f32) (main_arg4 : FVec F S64 .f32) (main_arg5 : FVec F S64x40 .f32) (main_arg6 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S256x64 .f32 := Host.absf main_arg3
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_v13 main_v16
-- ==== Kernel.lean ====
abbrev S100000x256 : Shape := ⟨2, ![100000, 256]⟩
abbrev S2x3200000 : Shape := ⟨2, ![2, 3200000]⟩
abbrev S3200000 : Shape := ⟨1, ![3200000]⟩
abbrev S256x64 : Shape := ⟨2, ![256, 64]⟩
abbrev S64 : Shape := ⟨1, ![64]⟩
abbrev S64x40 : Shape := ⟨2, ![64, 40]⟩
abbrev S40 : Shape := ⟨1, ![40]⟩
abbrev S1x3200000 : Shape := ⟨2, ![1, 3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S10000x256 : Shape := ⟨2, ![10000, 256]⟩
abbrev S10000x64 : Shape := ⟨2, ![10000, 64]⟩
abbrev S1 : Shape := ⟨1, ![1]⟩
abbrev S1x1 : Shape := ⟨2, ![1, 1]⟩
abbrev S3300000x64 : Shape := ⟨2, ![3300000, 64]⟩
abbrev S1x64 : Shape := ⟨2, ![1, 64]⟩
abbrev S100000x40 : Shape := ⟨2, ![100000, 40]⟩
abbrev S10000x40 : Shape := ⟨2, ![10000, 40]⟩
abbrev S3300000x40 : Shape := ⟨2, ![3300000, 40]⟩
abbrev S1x40 : Shape := ⟨2, ![1, 40]⟩

abbrev nBuf : Space → Nat
  | .hbm => 124
  | .vmem => 10
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S3200000, .f32⟩
  | .hbm, ⟨3, _⟩ => ⟨S256x64, .f32⟩
  | .hbm, ⟨4, _⟩ => ⟨S64, .f32⟩
  | .hbm, ⟨5, _⟩ => ⟨S64x40, .f32⟩
  | .hbm, ⟨6, _⟩ => ⟨S40, .f32⟩
  | .hbm, ⟨7, _⟩ => ⟨S1x3200000, .i32⟩
  | .hbm, ⟨8, _⟩ => ⟨S3200000, .i32⟩
  | .hbm, ⟨9, _⟩ => ⟨S100000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S100000, .i32⟩
  | .hbm, ⟨14, _⟩ => ⟨S3300000, .i32⟩
  | .hbm, ⟨15, _⟩ => ⟨S_, .f32⟩
  | .hbm, ⟨16, _⟩ => ⟨S100000, .f32⟩
  | .hbm, ⟨17, _⟩ => ⟨S3300000, .f32⟩
  | .hbm, ⟨18, _⟩ => ⟨S_, .f32⟩
  | .hbm, ⟨19, _⟩ => ⟨S100000, .f32⟩
  | .hbm, ⟨20, _⟩ => ⟨S3300000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000, .f32⟩
  | .hbm, ⟨56, _⟩ => ⟨S3300000, .f32⟩
  | .hbm, ⟨57, _⟩ => ⟨S3300000x1, .f32⟩
  | .hbm, ⟨58, _⟩ => ⟨S100000x64, .f32⟩
  | .hbm, ⟨59, _⟩ => ⟨S_, .i32⟩
  | .hbm, ⟨60, _⟩ => ⟨S3300000, .i32⟩
  | .hbm, ⟨61, _⟩ => ⟨S3300000, .i1⟩
  | .hbm, ⟨62, _⟩ => ⟨S_, .i32⟩
  | .hbm, ⟨63, _⟩ => ⟨S3300000, .i32⟩
  | .hbm, ⟨64, _⟩ => ⟨S3300000, .i32⟩
  | .hbm, ⟨65, _⟩ => ⟨S3300000, .i32⟩
  | .hbm, ⟨66, _⟩ => ⟨S3300000x1, .i32⟩
  | .hbm, ⟨67, _⟩ => ⟨S1, .i32⟩
  | .hbm, ⟨68, _⟩ => ⟨S_, .i32⟩
  | .hbm, ⟨69, _⟩ => ⟨S3300000x1, .i32⟩
  | .hbm, ⟨70, _⟩ => ⟨S3300000x1, .i1⟩
  | .hbm, ⟨71, _⟩ => ⟨S1x1, .i32⟩
  | .hbm, ⟨72, _⟩ => ⟨S3300000x1, .i32⟩
  | .hbm, ⟨73, _⟩ => ⟨S3300000x1, .i1⟩
  | .hbm, ⟨74, _⟩ => ⟨S3300000x1, .i1⟩
  | .hbm, ⟨75, _⟩ => ⟨S_, .i1⟩
  | .hbm, ⟨76, _⟩ => ⟨S3300000, .i1⟩
  | .hbm, ⟨77, _⟩ => ⟨S3300000x64, .f32⟩
  | .hbm, ⟨78, _⟩ => ⟨S3300000x64, .i1⟩
  | .hbm, ⟨79, _⟩ => ⟨S_, .f32⟩
  | .hbm, ⟨80, _⟩ => ⟨S3300000x64, .f32⟩
  | .hbm, ⟨81, _⟩ => ⟨S3300000x64, .f32⟩
  | .hbm, ⟨82, _⟩ => ⟨S3300000x64, .f32⟩
  | .hbm, ⟨83, _⟩ => ⟨S3300000x64, .f32⟩
  | .hbm, ⟨84, _⟩ => ⟨S_, .f32⟩
  | .hbm, ⟨85, _⟩ => ⟨S100000x64, .f32⟩
  | .hbm, ⟨86, _⟩ => ⟨S3300000x1, .i32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S100000x40, .f32⟩
  | .hbm, ⟨92, _⟩ => ⟨S_, .i32⟩
  | .hbm, ⟨93, _⟩ => ⟨S3300000, .i32⟩
  | .hbm, ⟨94, _⟩ => ⟨S3300000, .i1⟩
  | .hbm, ⟨95, _⟩ => ⟨S_, .i32⟩
  | .hbm, ⟨96, _⟩ => ⟨S3300000, .i32⟩
  | .hbm, ⟨97, _⟩ => ⟨S3300000, .i32⟩
  | .hbm, ⟨98, _⟩ => ⟨S3300000, .i32⟩
  | .hbm, ⟨99, _⟩ => ⟨S3300000x1, .i32⟩
  | .hbm, ⟨100, _⟩ => ⟨S1, .i32⟩
  | .hbm, ⟨101, _⟩ => ⟨S_, .i32⟩
  | .hbm, ⟨102, _⟩ => ⟨S3300000x1, .i32⟩
  | .hbm, ⟨103, _⟩ => ⟨S3300000x1, .i1⟩
  | .hbm, ⟨104, _⟩ => ⟨S1x1, .i32⟩
  | .hbm, ⟨105, _⟩ => ⟨S3300000x1, .i32⟩
  | .hbm, ⟨106, _⟩ => ⟨S3300000x1, .i1⟩
  | .hbm, ⟨107, _⟩ => ⟨S3300000x1, .i1⟩
  | .hbm, ⟨108, _⟩ => ⟨S_, .i1⟩
  | .hbm, ⟨109, _⟩ => ⟨S3300000, .i1⟩
  | .hbm, ⟨110, _⟩ => ⟨S3300000x40, .f32⟩
  | .hbm, ⟨111, _⟩ => ⟨S3300000x40, .i1⟩
  | .hbm, ⟨112, _⟩ => ⟨S_, .f32⟩
  | .hbm, ⟨113, _⟩ => ⟨S3300000x40, .f32⟩
  | .hbm, ⟨114, _⟩ => ⟨S3300000x40, .f32⟩
  | .hbm, ⟨115, _⟩ => ⟨S3300000x40, .f32⟩
  | .hbm, ⟨116, _⟩ => ⟨S3300000x40, .f32⟩
  | .hbm, ⟨117, _⟩ => ⟨S_, .f32⟩
  | .hbm, ⟨118, _⟩ => ⟨S100000x40, .f32⟩
  | .hbm, ⟨119, _⟩ => ⟨S3300000x1, .i32⟩
  | .hbm, ⟨120, _⟩ => ⟨S100000x40, .f32⟩
  | .hbm, ⟨121, _⟩ => ⟨S1x40, .f32⟩
  | .hbm, ⟨122, _⟩ => ⟨S100000x40, .f32⟩
  | .hbm, ⟨123, _⟩ => ⟨S100000x40, .f32⟩
  | .local _ .vmem, ⟨0, _⟩ => ⟨S10000x256, .f32⟩
  | .local _ .vmem, ⟨1, _⟩ => ⟨S10000x256, .f32⟩
  | .local _ .vmem, ⟨2, _⟩ => ⟨S256x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x40, .f32⟩
  | .local _ .vmem, ⟨8, _⟩ => ⟨S10000x40, .f32⟩
  | .local _ .vmem, ⟨9, _⟩ => ⟨S10000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_call1_v0 : Ref sig .tc := ⟨.hbm, 34, rfl⟩
abbrev main_call1_v1 : Ref sig .tc := ⟨.hbm, 35, rfl⟩
abbrev main_v19 : Ref sig .tc := ⟨.hbm, 36, rfl⟩
abbrev main_c : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_c_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_call2_c : Ref sig .tc := ⟨.hbm, 59, rfl⟩
abbrev main_call2_v0 : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_c_1 : Ref sig .tc := ⟨.hbm, 67, rfl⟩
abbrev main_call2_c_2 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_3 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_call2_cst : Ref sig .tc := ⟨.hbm, 79, rfl⟩
abbrev main_call2_v15 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_cst_8 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_call3_c : Ref sig .tc := ⟨.hbm, 92, rfl⟩
abbrev main_call3_v0 : Ref sig .tc := ⟨.hbm, 93, rfl⟩
abbrev main_call3_v1 : Ref sig .tc := ⟨.hbm, 94, rfl⟩
abbrev main_call3_c_0 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_call3_v5 : Ref sig .tc := ⟨.hbm, 99, rfl⟩
abbrev main_call3_c_1 : Ref sig .tc := ⟨.hbm, 100, rfl⟩
abbrev main_call3_c_2 : Ref sig .tc := ⟨.hbm, 101, rfl⟩
abbrev main_call3_v6 : Ref sig .tc := ⟨.hbm, 102, rfl⟩
abbrev main_call3_v7 : Ref sig .tc := ⟨.hbm, 103, rfl⟩
abbrev main_call3_v8 : Ref sig .tc := ⟨.hbm, 104, rfl⟩
abbrev main_call3_v9 : Ref sig .tc := ⟨.hbm, 105, rfl⟩
abbrev main_call3_v10 : Ref sig .tc := ⟨.hbm, 106, rfl⟩
abbrev main_call3_v11 : Ref sig .tc := ⟨.hbm, 107, rfl⟩
abbrev main_call3_c_3 : Ref sig .tc := ⟨.hbm, 108, rfl⟩
abbrev main_call3_v12 : Ref sig .tc := ⟨.hbm, 109, rfl⟩
abbrev main_call3_v13 : Ref sig .tc := ⟨.hbm, 110, rfl⟩
abbrev main_call3_v14 : Ref sig .tc := ⟨.hbm, 111, rfl⟩
abbrev main_call3_cst : Ref sig .tc := ⟨.hbm, 112, rfl⟩
abbrev main_call3_v15 : Ref sig .tc := ⟨.hbm, 113, rfl⟩
abbrev main_v48 : Ref sig .tc := ⟨.hbm, 114, rfl⟩
abbrev main_v49 : Ref sig .tc := ⟨.hbm, 115, rfl⟩
abbrev main_v50 : Ref sig .tc := ⟨.hbm, 116, rfl⟩
abbrev main_cst_9 : Ref sig .tc := ⟨.hbm, 117, rfl⟩
abbrev main_v51 : Ref sig .tc := ⟨.hbm, 118, rfl⟩
abbrev main_v52 : Ref sig .tc := ⟨.hbm, 119, rfl⟩
abbrev main_v53 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  shapeCasts_S3300000_S3300000x1 : S3300000.ShapeCasts S3300000x1
  inb_S10000x256_S10000x256_0_0 : ∀ a, (![0, 0] : Fin 2 → Nat) a + S10000x256.size a ≤ S10000x256.size a
  h_S10000x256 : 0 < S10000x256.numel
  inb_S256x64_S256x64_0_0 : ∀ a, (![0, 0] : Fin 2 → Nat) a + S256x64.size a ≤ S256x64.size a
  h_S256x64 : 0 < S256x64.numel
  inb_S10000x64_S10000x64_0_0 : ∀ a, (![0, 0] : Fin 2 → Nat) a + S10000x64.size a ≤ S10000x64.size a
  h_S10000x64 : 0 < S10000x64.numel
  bcast_S_S3300000x1 : S_.BroadcastsInDim S3300000x1 (![] : Fin 0 → Fin S3300000x1.rank)
  bcast_S1_S1x1_1 : S1.BroadcastsInDim S1x1 (![1] : Fin 1 → Fin S1x1.rank)
  bcast_S1x1_S3300000x1_0_1 : S1x1.BroadcastsInDim S3300000x1 (![0, 1] : Fin 2 → Fin S3300000x1.rank)
  reducesTo_S3300000x1_S3300000_d1 : S3300000x1.ReducesTo [1] S3300000
  h_S_ : 0 < S_.numel
  bcast_S3300000_S3300000x64_0 : S3300000.BroadcastsInDim S3300000x64 (![0] : Fin 1 → Fin S3300000x64.rank)
  bcast_S_S3300000x64 : S_.BroadcastsInDim S3300000x64 (![] : Fin 0 → Fin S3300000x64.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  inb_S64x40_S64x40_0_0 : ∀ a, (![0, 0] : Fin 2 → Nat) a + S64x40.size a ≤ S64x40.size a
  h_S64x40 : 0 < S64x40.numel
  inb_S10000x40_S10000x40_0_0 : ∀ a, (![0, 0] : Fin 2 → Nat) a + S10000x40.size a ≤ S10000x40.size a
  h_S10000x40 : 0 < S10000x40.numel
  bcast_S3300000_S3300000x40_0 : S3300000.BroadcastsInDim S3300000x40 (![0] : Fin 1 → Fin S3300000x40.rank)
  bcast_S_S3300000x40 : S_.BroadcastsInDim S3300000x40 (![] : Fin 0 → Fin S3300000x40.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x256_S256x64_S10000x64_1_0_0_1_n_n_wf : DotDims.WF S10000x256 S256x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x40_S10000x40_1_0_0_1_n_n_wf : DotDims.WF S10000x64 S64x40 S10000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S100000x256.size a
  hwx0_0 : ∀ i : grid0.Coords, EltTy.bits .f32 = 32 ∨ (Rect.block (s := S100000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x40.size a ≤ S64x40.size a
  hwx1_1 : ∀ i : grid1.Coords, EltTy.bits .f32 = 32 ∨ (Rect.block (s := S64x40) S64x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x40.size a ≤ S100000x40.size a
  hwx1_2 : ∀ i : grid1.Coords, EltTy.bits .f32 = 32 ∨ (Rect.block (s := S100000x40) S10000x40.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v37) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S3200000 : Shape := ⟨1, ![3200000]⟩
abbrev S256x64 : Shape := ⟨2, ![256, 64]⟩
abbrev S64 : Shape := ⟨1, ![64]⟩
abbrev S64x40 : Shape := ⟨2, ![64, 40]⟩
abbrev S40 : Shape := ⟨1, ![40]⟩
abbrev S1x3200000 : Shape := ⟨2, ![1, 3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x40 : Shape := ⟨2, ![100000, 40]⟩
abbrev S3300000x40 : Shape := ⟨2, ![3300000, 40]⟩
abbrev S1x40 : Shape := ⟨2, ![1, 40]⟩

abbrev nBuf : Space → Nat
  | .hbm => 97
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S3200000, .f32⟩
  | .hbm, ⟨3, _⟩ => ⟨S256x64, .f32⟩
  | .hbm, ⟨4, _⟩ => ⟨S64, .f32⟩
  | .hbm, ⟨5, _⟩ => ⟨S64x40, .f32⟩
  | .hbm, ⟨6, _⟩ => ⟨S40, .f32⟩
  | .hbm, ⟨7, _⟩ => ⟨S1x3200000, .i32⟩
  | .hbm, ⟨8, _⟩ => ⟨S3200000, .i32⟩
  | .hbm, ⟨9, _⟩ => ⟨S100000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S100000, .i32⟩
  | .hbm, ⟨14, _⟩ => ⟨S3300000, .i32⟩
  | .hbm, ⟨15, _⟩ => ⟨S_, .f32⟩
  | .hbm, ⟨16, _⟩ => ⟨S100000, .f32⟩
  | .hbm, ⟨17, _⟩ => ⟨S3300000, .f32⟩
  | .hbm, ⟨18, _⟩ => ⟨S_, .f32⟩
  | .hbm, ⟨19, _⟩ => ⟨S100000, .f32⟩
  | .hbm, ⟨20, _⟩ => ⟨S3300000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000, .f32⟩
  | .hbm, ⟨56, _⟩ => ⟨S3300000, .f32⟩
  | .hbm, ⟨57, _⟩ => ⟨S100000x64, .f32⟩
  | .hbm, ⟨58, _⟩ => ⟨S3300000x1, .f32⟩
  | .hbm, ⟨59, _⟩ => ⟨S_, .i32⟩
  | .hbm, ⟨60, _⟩ => ⟨S3300000, .i32⟩
  | .hbm, ⟨61, _⟩ => ⟨S3300000, .i1⟩
  | .hbm, ⟨62, _⟩ => ⟨S_, .i32⟩
  | .hbm, ⟨63, _⟩ => ⟨S3300000, .i32⟩
  | .hbm, ⟨64, _⟩ => ⟨S3300000, .i32⟩
  | .hbm, ⟨65, _⟩ => ⟨S3300000, .i32⟩
  | .hbm, ⟨66, _⟩ => ⟨S3300000x1, .i32⟩
  | .hbm, ⟨67, _⟩ => ⟨S3300000x64, .f32⟩
  | .hbm, ⟨68, _⟩ => ⟨S3300000x64, .f32⟩
  | .hbm, ⟨69, _⟩ => ⟨S3300000x64, .f32⟩
  | .hbm, ⟨70, _⟩ => ⟨S_, .f32⟩
  | .hbm, ⟨71, _⟩ => ⟨S100000x64, .f32⟩
  | .hbm, ⟨72, _⟩ => ⟨S3300000x1, .i32⟩
  | .hbm, ⟨73, _⟩ => ⟨S100000x64, .f32⟩
  | .hbm, ⟨74, _⟩ => ⟨S1x64, .f32⟩
  | .hbm, ⟨75, _⟩ => ⟨S100000x64, .f32⟩
  | .hbm, ⟨76, _⟩ => ⟨S100000x64, .f32⟩
  | .hbm, ⟨77, _⟩ => ⟨S100000x40, .f32⟩
  | .hbm, ⟨78, _⟩ => ⟨S3300000x1, .f32⟩
  | .hbm, ⟨79, _⟩ => ⟨S_, .i32⟩
  | .hbm, ⟨80, _⟩ => ⟨S3300000, .i32⟩
  | .hbm, ⟨81, _⟩ => ⟨S3300000, .i1⟩
  | .hbm, ⟨82, _⟩ => ⟨S_, .i32⟩
  | .hbm, ⟨83, _⟩ => ⟨S3300000, .i32⟩
  | .hbm, ⟨84, _⟩ => ⟨S3300000, .i32⟩
  | .hbm, ⟨85, _⟩ => ⟨S3300000, .i32⟩
  | .hbm, ⟨86, _⟩ => ⟨S3300000x1, .i32⟩
  | .hbm, ⟨87, _⟩ => ⟨S3300000x40, .f32⟩
  | .hbm, ⟨88, _⟩ => ⟨S3300000x40, .f32⟩
  | .hbm, ⟨89, _⟩ => ⟨S3300000x40, .f32⟩
  | .hbm, ⟨90, _⟩ => ⟨S_, .f32⟩
  | .hbm, ⟨91, _⟩ => ⟨S100000x40, .f32⟩
  | .hbm, ⟨92, _⟩ => ⟨S3300000x1, .i32⟩
  | .hbm, ⟨93, _⟩ => ⟨S100000x40, .f32⟩
  | .hbm, ⟨94, _⟩ => ⟨S1x40, .f32⟩
  | .hbm, ⟨95, _⟩ => ⟨S100000x40, .f32⟩
  | .hbm, ⟨96, _⟩ => ⟨S100000x40, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_call1_v0 : Ref sig .tc := ⟨.hbm, 34, rfl⟩
abbrev main_call1_v1 : Ref sig .tc := ⟨.hbm, 35, rfl⟩
abbrev main_v19 : Ref sig .tc := ⟨.hbm, 36, rfl⟩
abbrev main_c : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_c_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_8 : Ref sig .tc := ⟨.hbm, 59, rfl⟩
abbrev main_v38 : Ref sig .tc := ⟨.hbm, 60, rfl⟩
abbrev main_v39 : Ref sig .tc := ⟨.hbm, 61, rfl⟩
abbrev main_c_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c_11 : Ref sig .tc := ⟨.hbm, 79, rfl⟩
abbrev main_v55 : Ref sig .tc := ⟨.hbm, 80, rfl⟩
abbrev main_v56 : Ref sig .tc := ⟨.hbm, 81, rfl⟩
abbrev main_c_12 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_13 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x256_S256x64_S100000x64_1_0_0_1_n_n_wf : DotDims.WF S100000x256 S256x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x40_S100000x40_1_0_0_1_n_n_wf : DotDims.WF S100000x64 S64x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.LayerSpec.lean ====
/-
  The pieces of the kernel program's two graph-convolution layers as functions of arrays, in the program's own shapes.
  The edge list has 3 300 000 entries: the 3 200 000 given edges followed by one self-loop per node. A layer gathers
  the rows of the projected node table at the edges' source indices, scales row e by the normalisation coefficient
  of edge e, sums the rows into the edges' target nodes and adds the bias. The program's gather is a masked one: an
  index is first wrapped (a negative index counts from the end), and a row whose wrapped index fails the test
  0 ≤ · ≤ 99 999 is filled with the junk value instead of being read.
-/
import proofs.«407552_j59596966199899_2_alg».proof.Proof.Gen.KernelIdeal

noncomputable section

namespace Cert.KernelIdeal.Layers

open Idealize.ShloMosaic Idealize.SL.Sem
open Cert.KernelIdeal Cert.KernelIdeal.Facts₀ Cert.KernelIdeal.Facts

variable {F : FTy → Type} [FloatOps F]

/-- An index below zero counts from the end of the 100 000 rows; any other index is kept. -/
def wrapIdx (r : IVec S3300000 32) : IVec S3300000 32 :=
  select (cmpi .slt r (broadcastInDim S3300000 ![] bcast_S_S3300000 (constantI S_ 32 0#32)))
    (addi r (broadcastInDim S3300000 ![] bcast_S_S3300000 (constantI S_ 32 100000#32))) r

/-- A vector of edge indices as the one-column matrix a gather or a scatter reads its start indices from. -/
def edgeCol (r : IVec S3300000 32) : IVec S3300000x1 32 :=
  broadcastInDim S3300000x1 ![0] bcast_S3300000_S3300000x1_0 r

/-- The gathered source rows of a width-64 table, kept where `mask` is 1 and filled with the junk value elsewhere. -/
def maskedRows64 (mask : IVec S3300000 1) (t : FVec F S100000x64 .f32) (r : IVec S3300000 32) : FVec F S3300000x64 .f32 :=
  select (broadcastInDim S3300000x64 ![0] bcast_S3300000_S3300000x64_0 mask)
    (Host.gather gather_S100000x64_S3300000x1_S3300000x64_1_0_n_n_0_1_164 t (edgeCol (wrapIdx r)))
    (broadcastInDim S3300000x64 ![] bcast_S_S3300000x64 (constant S_ .f32 0x7FC00000#32))

/-- The rest of a width-64 layer once the per-edge rows are in hand: scale row `e` by coefficient `e`, sum the rows
    into their target nodes, add the bias to every node. -/
def layerOf64 (rows : FVec F S3300000x64 .f32) (col : IVec S3300000 32) (n2 : FVec F S3300000x1 .f32) (b : FVec F S64 .f32) :
    FVec F S100000x64 .f32 :=
  addf (Host.scatterAdd scatter_S100000x64_S3300000x1_S3300000x64_1_0_0_1
        (broadcastInDim S100000x64 ![] bcast_S_S100000x64 (constant S_ .f32 0x00000000#32))
        (edgeCol col)
        (mulf (broadcastInDim S3300000x64 ![0, 1] bcast_S3300000x1_S3300000x64_0_1 n2) rows))
    (broadcastInDim S100000x64 ![0, 1] bcast_S1x64_S100000x64_0_1 (broadcastInDim S1x64 ![1] bcast_S64_S1x64_1 b))

/-- The gathered source rows of a width-40 table, kept where `mask` is 1 and filled with the junk value elsewhere. -/
def maskedRows40 (mask : IVec S3300000 1) (t : FVec F S100000x40 .f32) (r : IVec S3300000 32) : FVec F S3300000x40 .f32 :=
  select (broadcastInDim S3300000x40 ![0] bcast_S3300000_S3300000x40_0 mask)
    (Host.gather gather_S100000x40_S3300000x1_S3300000x40_1_0_n_n_0_1_140 t (edgeCol (wrapIdx r)))
    (broadcastInDim S3300000x40 ![] bcast_S_S3300000x40 (constant S_ .f32 0x7FC00000#32))

/-- The rest of a width-40 layer once the per-edge rows are in hand: scale row `e` by coefficient `e`, sum the rows
    into their target nodes, add the bias to every node. -/
def layerOf40 (rows : FVec F S3300000x40 .f32) (col : IVec S3300000 32) (n2 : FVec F S3300000x1 .f32) (b : FVec F S40 .f32) :
    FVec F S100000x40 .f32 :=
  addf (Host.scatterAdd scatter_S100000x40_S3300000x1_S3300000x40_1_0_0_1
        (broadcastInDim S100000x40 ![] bcast_S_S100000x40 (constant S_ .f32 0x00000000#32))
        (edgeCol col)
        (mulf (broadcastInDim S3300000x40 ![0, 1] bcast_S3300000x1_S3300000x40_0_1 n2) rows))
    (broadcastInDim S100000x40 ![0, 1] bcast_S1x40_S100000x40_0_1 (broadcastInDim S1x40 ![1] bcast_S40_S1x40_1 b))

/-- The source indices of all 3 300 000 edges: row 0 of the edge list, then node `v` for the self-loop of node `v`. -/
def rowOf (ei : IVec S2x3200000 32) : IVec S3300000 32 :=
  concatenate S3300000 0
    [⟨S3200000, shapeCast S3200000 (extractStridedSlice S1x3200000 ![0, 0] ei slices_S2x3200000_S1x3200000_0_0) shapeCasts_S1x3200000_S3200000⟩,
     ⟨S100000, iotaInDim S100000 32 0⟩]
    concatenates_S3200000_S100000_S3300000_d0

/-- Every index of the vector names a node: `0 ≤ r e < 100 000`, read as a signed integer. -/
def InRange (r : IVec S3300000 32) : Prop :=
  ∀ e : S3300000.Idx, 0 ≤ (r e).toInt ∧ (r e).toInt < 100000

end Cert.KernelIdeal.Layers

end
-- ==== Proof.StageEntry.lean ====
/-
  What region 0 is entered with. The host operations before the first product compute, from the edge list and the
  edge weights alone, the source index and the target index of every edge (the given edges, then one self-loop per
  node) and the symmetric normalisation coefficient  dinv[source] · weight · dinv[target]  of every edge, as a column;
  they write no argument array. These are the same operations, in the same order, as the reference's first stages,
  so each buffer holds the reference's stage of the same arguments.
-/
import proofs.«407552_j59596966199899_2_alg».proof.Proof.Gen.KernelIdeal.Frame
import proofs.«407552_j59596966199899_2_alg».proof.Proof.Gen.ReferenceIdeal.Read
import proofs.«407552_j59596966199899_2_alg».proof.Proof.LayerSpec
import Idealize.ShloMosaic.Lib.StableHlo.Run

set_option maxRecDepth 16384

noncomputable section

namespace Cert.KernelIdeal.Stages

open Idealize.ShloMosaic Idealize.ShloMosaic.TcCoe Idealize.SL.Sem Idealize.ShloMosaic.StableHlo
open Cert.KernelIdeal Cert.KernelIdeal.Gen Cert.KernelIdeal.Layers

variable {F : FTy → Type} [FloatOps F]
variable (m : (ℓ : Loc nD τ sig) → Buf (Elt F) ℓ) (ρ : Dev nD → PrngReg)

set_option maxHeartbeats 4000000 in
/-- The source indices at region 0's entry are the reference's source-index stage of the edge list. -/
theorem entry_row (c : Dev nD) : W5 m ρ c (Proc.devRef .tc main_v3)
    = Cert.ReferenceIdeal.Read.val_main_v3 (F := F) (m ((c.tc : Thread nD τ).loc main_arg1)) := by
  dsimp only [W5, W4, W3, W2, W1, W0]
  simp only [hostOps0_4, hostOps0_3, hostOps0_2, hostOps0_1, hostOps0]
  after_results_simp
  rfl

set_option maxHeartbeats 4000000 in
/-- The target indices at region 0's entry are the reference's target-index stage of the edge list. -/
theorem entry_col (c : Dev nD) : W5 m ρ c (Proc.devRef .tc main_v7)
    = Cert.ReferenceIdeal.Read.val_main_v7 (F := F) (m ((c.tc : Thread nD τ).loc main_arg1)) := by
  dsimp only [W5, W4, W3, W2, W1, W0]
  simp only [hostOps0_4, hostOps0_3, hostOps0_2, hostOps0_1, hostOps0]
  after_results_simp
  rfl

set_option maxHeartbeats 4000000 in
/-- The coefficient column at region 0's entry is the reference's coefficient stage, re-laid as one column. -/
theorem entry_coef (c : Dev nD) : W5 m ρ c (Proc.devRef .tc main_v36)
    = shapeCast S3300000x1 (Cert.ReferenceIdeal.Read.val_main_v35 (F := F) (m ((c.tc : Thread nD τ).loc main_arg1)) (m ((c.tc : Thread nD τ).loc main_arg2))) Cert.KernelIdeal.Facts₀.shapeCasts_S3300000_S3300000x1 := by
  dsimp only [W5, W4, W3, W2, W1, W0]
  simp only [hostOps0_4, hostOps0_3, hostOps0_2, hostOps0_1, hostOps0]
  after_results_simp
  rfl

set_option maxHeartbeats 4000000 in
/-- No operation before region 0 writes argument 0. -/
theorem entry_arg0 (c : Dev nD) : W5 m ρ c (Proc.devRef .tc main_arg0) = m ((c.tc : Thread nD τ).loc main_arg0) := by
  dsimp only [W5, W4, W3, W2, W1, W0]
  simp only [hostOps0_4, hostOps0_3, hostOps0_2, hostOps0_1, hostOps0]
  after_results_simp <;> rfl

set_option maxHeartbeats 4000000 in
/-- No operation before region 0 writes argument 3. -/
theorem entry_arg3 (c : Dev nD) : W5 m ρ c (Proc.devRef .tc main_arg3) = m ((c.tc : Thread nD τ).loc main_arg3) := by
  dsimp only [W5, W4, W3, W2, W1, W0]
  simp only [hostOps0_4, hostOps0_3, hostOps0_2, hostOps0_1, hostOps0]
  after_results_simp <;> rfl

set_option maxHeartbeats 4000000 in
/-- No operation before region 0 writes argument 4. -/
theorem entry_arg4 (c : Dev nD) : W5 m ρ c (Proc.devRef .tc main_arg4) = m ((c.tc : Thread nD τ).loc main_arg4) := by
  dsimp only [W5, W4, W3, W2, W1, W0]
  simp only [hostOps0_4, hostOps0_3, hostOps0_2, hostOps0_1, hostOps0]
  after_results_simp <;> rfl

set_option maxHeartbeats 4000000 in
/-- No operation before region 0 writes argument 5. -/
theorem entry_arg5 (c : Dev nD) : W5 m ρ c (Proc.devRef .tc main_arg5) = m ((c.tc : Thread nD τ).loc main_arg5) := by
  dsimp only [W5, W4, W3, W2, W1, W0]
  simp only [hostOps0_4, hostOps0_3, hostOps0_2, hostOps0_1, hostOps0]
  after_results_simp <;> rfl

set_option maxHeartbeats 4000000 in
/-- No operation before region 0 writes argument 6. -/
theorem entry_arg6 (c : Dev nD) : W5 m ρ c (Proc.devRef .tc main_arg6) = m ((c.tc : Thread nD τ).loc main_arg6) := by
  dsimp only [W5, W4, W3, W2, W1, W0]
  simp only [hostOps0_4, hostOps0_3, hostOps0_2, hostOps0_1, hostOps0]
  after_results_simp <;> rfl

end Cert.KernelIdeal.Stages

end
-- ==== Proof.TakeInRange.lean ====
/-
  Source indices that name nodes (0 ≤ r e < 100 000), and what the masked gather does on them: the wrap leaves
  such an index alone, and the bounds test passes on every edge, so the mask — the and-reduction of the test over
  the single index column — is all ones and the select keeps the gathered rows. And under the certificate's
  precondition the source indices are of that kind: the first 3 200 000 are row 0 of the edge list, which the
  precondition bounds, and the last 100 000 are the nodes' own numbers.
-/
import proofs.«407552_j59596966199899_2_alg».proof.Proof.LayerSpec
import proofs.«407552_j59596966199899_2_alg».proof.Defs
import proofs.«407552_j59596966199899_2_alg».proof.Proof.Gen.Pre_finite_inputs
import Idealize.ShloMosaic.Lib.ReduceAll
import Idealize.ShloMosaic.Lib.StableHlo.Predicate
import Idealize.ShloMosaic.Lib.ValueIdx
import Idealize.ShloMosaic.Lib.Pipeline.Value

noncomputable section

namespace Cert.KernelIdeal.Layers

open Idealize.ShloMosaic Idealize.SL.Sem
open Cert.KernelIdeal Cert.KernelIdeal.Facts₀ Cert.KernelIdeal.Facts

variable {F : FTy → Type} [FloatOps F]

/-! ### Words: an index that names a node compares as expected -/

/-- A word whose signed value lies in `0 … 99 999` is not below zero, is at least zero and is at most 99 999. -/
theorem cmp_of_node (a : BitVec 32) (h0 : 0 ≤ a.toInt) (h1 : a.toInt < 100000) :
    IntOp.cmpi .slt a 0#32 = 0#1 ∧ IntOp.cmpi .sge a 0#32 = 1#1 ∧ IntOp.cmpi .sle a 99999#32 = 1#1 := by
  have z : (0#32 : BitVec 32).toInt = 0 := by decide
  have n : (99999#32 : BitVec 32).toInt = 99999 := by decide
  refine ⟨?_, ?_, ?_⟩
  · have e : a.slt 0#32 = false := by
      simp only [BitVec.slt, z]; exact decide_eq_false (by omega)
    show BitVec.ofBool (a.slt 0#32) = 0#1
    rw [e]; rfl
  · have e : (0#32 : BitVec 32).sle a = true := by
      simp only [BitVec.sle, z]; exact decide_eq_true (by omega)
    show BitVec.ofBool ((0#32 : BitVec 32).sle a) = 1#1
    rw [e]; rfl
  · have e : a.sle 99999#32 = true := by
      simp only [BitVec.sle, n]; exact decide_eq_true (by omega)
    show BitVec.ofBool (a.sle 99999#32) = 1#1
    rw [e]; rfl

/-- A left fold by `and` from 1 over bits that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = (1#1 : BitVec 1) from by decide]
    exact foldl_andi_ones f hf l

/-! ### The wrap, the bounds test and the mask on indices that name nodes -/

/-- An index that names a node is not negative, so the wrap keeps it. -/
theorem wrapIdx_of_inRange (r : IVec S3300000 32) (h : InRange r) : wrapIdx r = r := by
  funext e
  obtain ⟨h0, h1⟩ := h e
  show Scalar.select (IntOp.cmpi .slt (r e) 0#32) (IntOp.addi (r e) 100000#32) (r e) = r e
  rw [(cmp_of_node (r e) h0 h1).1]
  exact ValueIdx.select_zero _ _

/-- On indices that name nodes the bounds test, the `and` of the two signed compares 0 ≤ · and · ≤ 99 999, is 1 on
    every entry of the index column. -/
theorem compares_of_inRange (r : IVec S3300000 32) (h : InRange r) (i : S3300000x1.Idx) :
    andi (cmpi .sge (edgeCol r) (broadcastInDim S3300000x1 ![] bcast_S_S3300000x1 (constantI S_ 32 0#32)))
      (cmpi .sle (edgeCol r) (broadcastInDim S3300000x1 ![0, 1] bcast_S1x1_S3300000x1_0_1
        (broadcastInDim S1x1 ![1] bcast_S1_S1x1_1 (constantI S1 32 99999#32)))) i = 1#1 := by
  obtain ⟨h0, h1⟩ := h (fun a => if h1 : S3300000.size a = 1 then ⟨0, by omega⟩ else ⟨(i ((![0] : Fin 1 → Fin 2) a)).val, by
    rcases bcast_S3300000_S3300000x1_0.2 a with h2 | h2
    · exact absurd h2 h1
    · rw [h2]; exact (i _).isLt⟩)
  obtain ⟨_, hge, hle⟩ := cmp_of_node _ h0 h1
  show IntOp.andi (IntOp.cmpi .sge _ 0#32) (IntOp.cmpi .sle _ 99999#32) = 1#1
  exact IntOp.andi_eq_one.2 ⟨hge, hle⟩

/-- An and-reduction over the single column of bits that are all 1, from an initial value that is 1, is 1 at every
    edge. -/
theorem reduce_andi_ones (A : IVec S3300000x1 1) (B : IVec S_ 1) (hA : ∀ i, A i = 1#1) (hB : ∀ i, B i = 1#1) :
    Host.reduce IntOp.andi A B reducesTo_S3300000x1_S3300000_d1 h_S_ = fun _ => 1#1 := by
  funext e
  unfold Host.reduce
  rw [hB]
  exact foldl_andi_ones _ (fun n => hA _) _

/-- A select whose mask is a broadcast of bits that are all 1 keeps its first branch. -/
theorem select_bcast_ones {α : Type} {s t : Shape} (dims : Fin s.rank → Fin t.rank) (hb : s.BroadcastsInDim t dims)
    (c : IVec s 1) (hc : ∀ e, c e = 1#1) (a b : t.Idx → α) : select (broadcastInDim t dims hb c) a b = a := by
  funext j
  show Scalar.select (c _) (a j) (b j) = a j
  rw [hc]
  exact ValueIdx.select_one _ _

/-! ### Reading the precondition's index range back -/

/-- A word that passes the two signed tests `0 ≤ ·` and `· < 100 000` names a node. -/
theorem node_of_cmp (a : BitVec 32) (hge : IntOp.cmpi .sge a 0#32 = 1#1) (hlt : IntOp.cmpi .slt a 100000#32 = 1#1) :
    0 ≤ a.toInt ∧ a.toInt < 100000 := by
  have z : (0#32 : BitVec 32).toInt = 0 := by decide
  have n : (100000#32 : BitVec 32).toInt = 100000 := by decide
  unfold IntOp.cmpi at hge hlt
  rw [StableHlo.Predicate.ofBool_eq_one_iff] at hge hlt
  simp only [BitVec.sle, BitVec.slt, z, n, decide_eq_true_eq] at hge hlt
  exact ⟨hge, hlt⟩

/-- Under the precondition, the source index of every edge (given or self-loop) names a node. -/
theorem rowOf_inRange (m : (ℓ : Loc nD τ sig) → Buf (Elt Ideal) ℓ) (hpre : Cert.Pre_KernelIdeal m) (c : Dev nD) :
    InRange (rowOf (m ((c.tc : Thread nD τ).loc main_arg1))) := by
  haveI : Subsingleton Cert.Pre_finite_inputs.S_.Idx := ⟨fun a b => funext fun d => d.elim0⟩
  have hc := congrFun (hpre c) ValueIdx.ix0
  dsimp only [Cert.Pre_finite_inputs.fn, Cert.Pre_finite_inputs.fn_part1, Cert.Pre_finite_inputs.fn_part2] at hc
  have h2 := (IntOp.andi_eq_one.1 hc).2
  have h3 := Host.reduce_andi_all _ _ _ _ _ h2
  intro e
  have he : (e 0).val < 3300000 := (e 0).isLt
  unfold rowOf
  by_cases hlt : (e 0).val < 3200000
  · -- a given edge: entry `e` of row 0 of the edge list, which the precondition bounds
    have hi : ∀ b : Fin S3200000.rank,
        ((ValueIdx.ix1 (⟨(e 0).val, hlt⟩ : Fin 3200000) : S3200000.Idx) b).val = (e (b.cast (rfl : S3200000.rank = S3300000.rank))).val := by
      intro b
      have hb : b = 0 := Subsingleton.elim _ _
      subst hb; rfl
    rw [concatenate_pair_apply_left (0 : Fin S3300000.rank) _ _ concatenates_S3200000_S100000_S3300000_d0 e rfl
      (ValueIdx.ix1 (⟨(e 0).val, hlt⟩ : Fin 3200000)) hi]
    obtain ⟨hge, hlt'⟩ := IntOp.andi_eq_one.1 (h3 (ValueIdx.ix1 (⟨(e 0).val, hlt⟩ : Fin 3200000)))
    exact node_of_cmp _ hge hlt'
  · -- a self-loop: the node's own number, `e − 3 200 000`
    have hk : (e 0).val - 3200000 < 100000 := by omega
    have hi : ∀ b : Fin S100000.rank, b.cast (rfl : S100000.rank = S3300000.rank) ≠ (0 : Fin S3300000.rank) →
        ((ValueIdx.ix1 (⟨(e 0).val - 3200000, hk⟩ : Fin 100000) : S100000.Idx) b).val = (e (b.cast (rfl : S100000.rank = S3300000.rank))).val := by
      intro b hb
      exact absurd (Subsingleton.elim _ _) hb
    rw [concatenate_pair_apply_right (0 : Fin S3300000.rank) _ _ concatenates_S3200000_S100000_S3300000_d0 e rfl rfl
      (ValueIdx.ix1 (⟨(e 0).val - 3200000, hk⟩ : Fin 100000)) hi (by show (e 0).val - 3200000 + 3200000 = (e 0).val; omega)]
    show 0 ≤ (BitVec.ofNat 32 ((e 0).val - 3200000)).toInt ∧ (BitVec.ofNat 32 ((e 0).val - 3200000)).toInt < 100000
    rw [StableHlo.Predicate.toInt_ofNat_small _ (by omega)]
    omega

end Cert.KernelIdeal.Layers

end
-- ==== Proof.StageFirst.lean ====
/-
  The first layer. Region 0 writes the projected node table (features · W1) into its output array and touches no
  other unscoped buffer; the host operations after it are one graph-convolution layer on that table, whose result
  (the hidden node table) is the left factor of the second product.
-/
import proofs.«407552_j59596966199899_2_alg».proof.Proof.Gen.KernelIdeal.Frame
import proofs.«407552_j59596966199899_2_alg».proof.Proof.Gen.ReferenceIdeal.Read
import proofs.«407552_j59596966199899_2_alg».proof.Proof.LayerSpec
import Idealize.ShloMosaic.Lib.StableHlo.Run
import proofs.«407552_j59596966199899_2_alg».proof.Proof.TakeInRange

set_option maxRecDepth 16384

noncomputable section

namespace Cert.KernelIdeal.Stages.First

open Idealize.ShloMosaic Idealize.ShloMosaic.TcCoe Idealize.SL.Sem Idealize.ShloMosaic.StableHlo
open Cert.KernelIdeal Cert.KernelIdeal.Gen Cert.KernelIdeal.Layers

variable {F : FTy → Type} [FloatOps F]
variable (m : (ℓ : Loc nD τ sig) → Buf (Elt F) ℓ) (ρ : Dev nD → PrngReg)

/-! ## The layer's host operations, from any buffer contents `Vv` -/

set_option maxHeartbeats 8000000 in
/-- From any contents `Vv` whose source indices name nodes, the host operations after region 0 leave in
    `main_v46` one graph-convolution layer on `main_v37`'s contents. The operations gather with a mask (wrap the index,
    test it against 0 … 99 999, fill where the test fails); on such indices the test passes on every edge, so the
    and-reduction that makes the mask is 1 everywhere, and the select keeps every gathered row. -/
theorem layer_of (Vv : Valuation τ sig (Elt F)) (h : InRange (Vv (Proc.devRef .tc main_v3))) :
    StableHlo.after (hostOps1_1 (F := F)) (StableHlo.after (hostOps1 (F := F)) Vv) (Proc.devRef .tc main_v46)
    = layerOf64 (Host.gather gather_S100000x64_S3300000x1_S3300000x64_1_0_n_n_0_1_164 (Vv (Proc.devRef .tc main_v37)) (edgeCol (wrapIdx (Vv (Proc.devRef .tc main_v3)))))
        (Vv (Proc.devRef .tc main_v7)) (Vv (Proc.devRef .tc main_v36)) (Vv (Proc.devRef .tc main_arg4)) := by
  have hw : InRange (wrapIdx (Vv (Proc.devRef .tc main_v3))) := by
    rw [wrapIdx_of_inRange _ h]; exact h
  simp only [hostOps1_1, hostOps1]
  after_results_simp
  rw [reduce_andi_ones]
  · refine Eq.trans (b := layerOf64 (maskedRows64 (fun _ => 1#1) (Vv (Proc.devRef .tc main_v37)) (Vv (Proc.devRef .tc main_v3)))
        (Vv (Proc.devRef .tc main_v7)) (Vv (Proc.devRef .tc main_v36)) (Vv (Proc.devRef .tc main_arg4))) (by rfl) ?_
    unfold maskedRows64
    rw [select_bcast_ones _ _ _ (fun _ => rfl)]
  · intro i
    show andi (cmpi .sge (edgeCol (wrapIdx (Vv (Proc.devRef .tc main_v3)))) (broadcastInDim S3300000x1 ![] Facts₀.bcast_S_S3300000x1 (constantI S_ 32 0#32)))
      (cmpi .sle (edgeCol (wrapIdx (Vv (Proc.devRef .tc main_v3)))) (broadcastInDim S3300000x1 ![0, 1] Facts₀.bcast_S1x1_S3300000x1_0_1
        (broadcastInDim S1x1 ![1] Facts₀.bcast_S1_S1x1_1 (constantI S1 32 99999#32)))) i = 1#1
    exact compares_of_inRange _ hw i
  · intro i
    rfl

set_option maxHeartbeats 8000000 in
/-- The layer's operations do not write `main_v3`. -/
theorem keep_of_main_v3 (Vv : Valuation τ sig (Elt F)) :
    StableHlo.after (hostOps1_1 (F := F)) (StableHlo.after (hostOps1 (F := F)) Vv) (Proc.devRef .tc main_v3) = Vv (Proc.devRef .tc main_v3) := by
  simp only [hostOps1_1, hostOps1]
  after_results_simp <;> rfl

set_option maxHeartbeats 8000000 in
/-- The layer's operations do not write `main_v7`. -/
theorem keep_of_main_v7 (Vv : Valuation τ sig (Elt F)) :
    StableHlo.after (hostOps1_1 (F := F)) (StableHlo.after (hostOps1 (F := F)) Vv) (Proc.devRef .tc main_v7) = Vv (Proc.devRef .tc main_v7) := by
  simp only [hostOps1_1, hostOps1]
  after_results_simp <;> rfl

set_option maxHeartbeats 8000000 in
/-- The layer's operations do not write `main_v36`. -/
theorem keep_of_main_v36 (Vv : Valuation τ sig (Elt F)) :
    StableHlo.after (hostOps1_1 (F := F)) (StableHlo.after (hostOps1 (F := F)) Vv) (Proc.devRef .tc main_v36) = Vv (Proc.devRef .tc main_v36) := by
  simp only [hostOps1_1, hostOps1]
  after_results_simp <;> rfl

set_option maxHeartbeats 8000000 in
/-- The layer's operations do not write `main_arg5`. -/
theorem keep_of_main_arg5 (Vv : Valuation τ sig (Elt F)) :
    StableHlo.after (hostOps1_1 (F := F)) (StableHlo.after (hostOps1 (F := F)) Vv) (Proc.devRef .tc main_arg5) = Vv (Proc.devRef .tc main_arg5) := by
  simp only [hostOps1_1, hostOps1]
  after_results_simp <;> rfl

set_option maxHeartbeats 8000000 in
/-- The layer's operations do not write `main_arg6`. -/
theorem keep_of_main_arg6 (Vv : Valuation τ sig (Elt F)) :
    StableHlo.after (hostOps1_1 (F := F)) (StableHlo.after (hostOps1 (F := F)) Vv) (Proc.devRef .tc main_arg6) = Vv (Proc.devRef .tc main_arg6) := by
  simp only [hostOps1_1, hostOps1]
  after_results_simp <;> rfl

/-! ## At the run's boundaries -/

/-- Region 0's output array at its exit is what the ten write-backs leave of it. -/
theorem exit_out (c : Dev nD) : W6 m ρ c (Proc.devRef .tc main_v37) = (dat0 (V5 m ρ) c).arrAt 2 cfg0.N :=
  W6_arr m ρ c 2

/-- The region stages `main_v3` through no window: it leaves it as entered. -/
theorem exit_keep_main_v3 (c : Dev nD) : W6 m ρ c (Proc.devRef .tc main_v3) = W5 m ρ c (Proc.devRef .tc main_v3) :=
  W6_of_ne m ρ c main_v3 (by decide)

/-- The region stages `main_v7` through no window: it leaves it as entered. -/
theorem exit_keep_main_v7 (c : Dev nD) : W6 m ρ c (Proc.devRef .tc main_v7) = W5 m ρ c (Proc.devRef .tc main_v7) :=
  W6_of_ne m ρ c main_v7 (by decide)

/-- The region stages `main_v36` through no window: it leaves it as entered. -/
theorem exit_keep_main_v36 (c : Dev nD) : W6 m ρ c (Proc.devRef .tc main_v36) = W5 m ρ c (Proc.devRef .tc main_v36) :=
  W6_of_ne m ρ c main_v36 (by decide)

/-- The region stages `main_arg4` through no window: it leaves it as entered. -/
theorem exit_keep_main_arg4 (c : Dev nD) : W6 m ρ c (Proc.devRef .tc main_arg4) = W5 m ρ c (Proc.devRef .tc main_arg4) :=
  W6_of_ne m ρ c main_arg4 (by decide)

/-- The region stages `main_arg5` through no window: it leaves it as entered. -/
theorem exit_keep_main_arg5 (c : Dev nD) : W6 m ρ c (Proc.devRef .tc main_arg5) = W5 m ρ c (Proc.devRef .tc main_arg5) :=
  W6_of_ne m ρ c main_arg5 (by decide)

/-- The region stages `main_arg6` through no window: it leaves it as entered. -/
theorem exit_keep_main_arg6 (c : Dev nD) : W6 m ρ c (Proc.devRef .tc main_arg6) = W5 m ρ c (Proc.devRef .tc main_arg6) :=
  W6_of_ne m ρ c main_arg6 (by decide)

/-- The layer's result at the run's boundary after it, when the source indices there name nodes. -/
theorem layer_out (c : Dev nD) (h : InRange (W6 m ρ c (Proc.devRef .tc main_v3))) : W8 m ρ c (Proc.devRef .tc main_v46)
    = layerOf64 (Host.gather gather_S100000x64_S3300000x1_S3300000x64_1_0_n_n_0_1_164 (W6 m ρ c (Proc.devRef .tc main_v37)) (edgeCol (wrapIdx (W6 m ρ c (Proc.devRef .tc main_v3)))))
        (W6 m ρ c (Proc.devRef .tc main_v7)) (W6 m ρ c (Proc.devRef .tc main_v36)) (W6 m ρ c (Proc.devRef .tc main_arg4)) :=
  layer_of (W6 m ρ c) h

theorem layer_keep_main_v3 (c : Dev nD) : W8 m ρ c (Proc.devRef .tc main_v3) = W6 m ρ c (Proc.devRef .tc main_v3) :=
  keep_of_main_v3 (W6 m ρ c)

theorem layer_keep_main_v7 (c : Dev nD) : W8 m ρ c (Proc.devRef .tc main_v7) = W6 m ρ c (Proc.devRef .tc main_v7) :=
  keep_of_main_v7 (W6 m ρ c)

theorem layer_keep_main_v36 (c : Dev nD) : W8 m ρ c (Proc.devRef .tc main_v36) = W6 m ρ c (Proc.devRef .tc main_v36) :=
  keep_of_main_v36 (W6 m ρ c)

theorem layer_keep_main_arg5 (c : Dev nD) : W8 m ρ c (Proc.devRef .tc main_arg5) = W6 m ρ c (Proc.devRef .tc main_arg5) :=
  keep_of_main_arg5 (W6 m ρ c)

theorem layer_keep_main_arg6 (c : Dev nD) : W8 m ρ c (Proc.devRef .tc main_arg6) = W6 m ρ c (Proc.devRef .tc main_arg6) :=
  keep_of_main_arg6 (W6 m ρ c)

end Cert.KernelIdeal.Stages.First

end
-- ==== Proof.StageSecond.lean ====
/-
  The second layer. Region 1 writes the projected hidden table (hidden · W2) into its output array and touches no
  other unscoped buffer; the host operations after it are one graph-convolution layer on that table, whose result is
  the program's result.
-/
import proofs.«407552_j59596966199899_2_alg».proof.Proof.Gen.KernelIdeal.Frame
import proofs.«407552_j59596966199899_2_alg».proof.Proof.Gen.ReferenceIdeal.Read
import proofs.«407552_j59596966199899_2_alg».proof.Proof.LayerSpec
import Idealize.ShloMosaic.Lib.StableHlo.Run
import proofs.«407552_j59596966199899_2_alg».proof.Proof.TakeInRange

set_option maxRecDepth 16384

noncomputable section

namespace Cert.KernelIdeal.Stages.Second

open Idealize.ShloMosaic Idealize.ShloMosaic.TcCoe Idealize.SL.Sem Idealize.ShloMosaic.StableHlo
open Cert.KernelIdeal Cert.KernelIdeal.Gen Cert.KernelIdeal.Layers

variable {F : FTy → Type} [FloatOps F]
variable (m : (ℓ : Loc nD τ sig) → Buf (Elt F) ℓ) (ρ : Dev nD → PrngReg)

/-! ## The layer's host operations, from any buffer contents `Vv` -/

set_option maxHeartbeats 8000000 in
/-- From any contents `Vv` whose source indices name nodes, the host operations after region 1 leave in
    `main_v56` one graph-convolution layer on `main_v47`'s contents. The operations gather with a mask (wrap the index,
    test it against 0 … 99 999, fill where the test fails); on such indices the test passes on every edge, so the
    and-reduction that makes the mask is 1 everywhere, and the select keeps every gathered row. -/
theorem layer_of (Vv : Valuation τ sig (Elt F)) (h : InRange (Vv (Proc.devRef .tc main_v3))) :
    StableHlo.after (hostOps2_1 (F := F)) (StableHlo.after (hostOps2 (F := F)) Vv) (Proc.devRef .tc main_v56)
    = layerOf40 (Host.gather gather_S100000x40_S3300000x1_S3300000x40_1_0_n_n_0_1_140 (Vv (Proc.devRef .tc main_v47)) (edgeCol (wrapIdx (Vv (Proc.devRef .tc main_v3)))))
        (Vv (Proc.devRef .tc main_v7)) (Vv (Proc.devRef .tc main_v36)) (Vv (Proc.devRef .tc main_arg6)) := by
  have hw : InRange (wrapIdx (Vv (Proc.devRef .tc main_v3))) := by
    rw [wrapIdx_of_inRange _ h]; exact h
  simp only [hostOps2_1, hostOps2]
  after_results_simp
  rw [reduce_andi_ones]
  · refine Eq.trans (b := layerOf40 (maskedRows40 (fun _ => 1#1) (Vv (Proc.devRef .tc main_v47)) (Vv (Proc.devRef .tc main_v3)))
        (Vv (Proc.devRef .tc main_v7)) (Vv (Proc.devRef .tc main_v36)) (Vv (Proc.devRef .tc main_arg6))) (by rfl) ?_
    unfold maskedRows40
    rw [select_bcast_ones _ _ _ (fun _ => rfl)]
  · intro i
    show andi (cmpi .sge (edgeCol (wrapIdx (Vv (Proc.devRef .tc main_v3)))) (broadcastInDim S3300000x1 ![] Facts₀.bcast_S_S3300000x1 (constantI S_ 32 0#32)))
      (cmpi .sle (edgeCol (wrapIdx (Vv (Proc.devRef .tc main_v3)))) (broadcastInDim S3300000x1 ![0, 1] Facts₀.bcast_S1x1_S3300000x1_0_1
        (broadcastInDim S1x1 ![1] Facts₀.bcast_S1_S1x1_1 (constantI S1 32 99999#32)))) i = 1#1
    exact compares_of_inRange _ hw i
  · intro i
    rfl

/-! ## At the run's boundaries -/

/-- Region 1's output array at its exit is what the ten write-backs leave of it. -/
theorem exit_out (c : Dev nD) : W9 m ρ c (Proc.devRef .tc main_v47) = (dat1 (V8 m ρ) c).arrAt 2 cfg1.N :=
  W9_arr m ρ c 2

/-- The region stages `main_v3` through no window: it leaves it as entered. -/
theorem exit_keep_main_v3 (c : Dev nD) : W9 m ρ c (Proc.devRef .tc main_v3) = W8 m ρ c (Proc.devRef .tc main_v3) :=
  W9_of_ne m ρ c main_v3 (by decide)

/-- The region stages `main_v7` through no window: it leaves it as entered. -/
theorem exit_keep_main_v7 (c : Dev nD) : W9 m ρ c (Proc.devRef .tc main_v7) = W8 m ρ c (Proc.devRef .tc main_v7) :=
  W9_of_ne m ρ c main_v7 (by decide)

/-- The region stages `main_v36` through no window: it leaves it as entered. -/
theorem exit_keep_main_v36 (c : Dev nD) : W9 m ρ c (Proc.devRef .tc main_v36) = W8 m ρ c (Proc.devRef .tc main_v36) :=
  W9_of_ne m ρ c main_v36 (by decide)

/-- The region stages `main_arg6` through no window: it leaves it as entered. -/
theorem exit_keep_main_arg6 (c : Dev nD) : W9 m ρ c (Proc.devRef .tc main_arg6) = W8 m ρ c (Proc.devRef .tc main_arg6) :=
  W9_of_ne m ρ c main_arg6 (by decide)

/-- The layer's result at the run's boundary after it, when the source indices there name nodes. -/
theorem layer_out (c : Dev nD) (h : InRange (W9 m ρ c (Proc.devRef .tc main_v3))) : W11 m ρ c (Proc.devRef .tc main_v56)
    = layerOf40 (Host.gather gather_S100000x40_S3300000x1_S3300000x40_1_0_n_n_0_1_140 (W9 m ρ c (Proc.devRef .tc main_v47)) (edgeCol (wrapIdx (W9 m ρ c (Proc.devRef .tc main_v3)))))
        (W9 m ρ c (Proc.devRef .tc main_v7)) (W9 m ρ c (Proc.devRef .tc main_v36)) (W9 m ρ c (Proc.devRef .tc main_arg6)) :=
  layer_of (W9 m ρ c) h

end Cert.KernelIdeal.Stages.Second

end
-- ==== Proof.BlockProduct.lean ====
/-
  The two row-blocked products. Each pallas region multiplies a tall matrix, ten blocks of 10 000 rows at a time,
  by a small matrix that stays resident, and writes each block of the product back to its rows of the output array.
  After the last write-back, entry (p, q) of the output array is the sum over k of (left p k) · (right k q): the
  block that holds row p is block p / 10 000, and inside it the body's matrix product over a zero accumulator is
  that sum, term by term.
-/
import proofs.«407552_j59596966199899_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.BlockProduct

open Idealize.ShloMosaic Idealize.ShloMosaic.TcCoe Idealize.SL.Sem
open Idealize.ShloMosaic.Pipeline (Dat Cfg Window)
open Cert.KernelIdeal Cert.KernelIdeal.Gen

-- the buffer contents a region is entered with
variable (V : (c : Dev nD) → (b : Ref sig .tc) → Buf (Elt Ideal) ((c : Thread nD τ).loc b))

/-- A block is read and written from its origin. -/
theorem origin2 : (![0, 0] : Fin 2 → Nat) = fun _ => 0 := funext fun a => by fin_cases a <;> rfl

/-! ## Layer 1: (100 000 × 256) · (256 × 64) -/

/-- Entry (i₀, k) of the left factor. -/
abbrev lrow0 (i : S100000x64.Idx) (k : Fin 256) : S100000x256.Idx := fun a => match a with
  | ⟨0, _⟩ => ⟨(i 0).val, (i 0).isLt⟩
  | ⟨1, _⟩ => ⟨k.val, k.isLt⟩
/-- Entry (k, i₁) of the right factor. -/
abbrev rcol0 (i : S100000x64.Idx) (k : Fin 256) : S256x64.Idx := fun a => match a with
  | ⟨0, _⟩ => ⟨k.val, k.isLt⟩
  | ⟨1, _⟩ => ⟨(i 1).val, (i 1).isLt⟩

/-- Axis by axis, where the block product reads its factors: row j₀ and the contracted index on the left, the
    contracted index and column j₁ on the right. -/
theorem blk0_lhs_0 (i : S10000x64.Idx) (q : dot_S10000x256_S256x64_S10000x64_1_0_0_1_n_n.contr.Idx) :
    (dot_S10000x256_S256x64_S10000x64_1_0_0_1_n_n.lhsIdx i q 0).val = (i 0).val := by
  unfold DotDims.lhsIdx
  rw [dif_neg (show ¬(0 : Fin S10000x256.rank) ∈ dot_S10000x256_S256x64_S10000x64_1_0_0_1_n_n.lhsBatch by decide), dif_pos (show (0 : Fin S10000x256.rank) ∈ dot_S10000x256_S256x64_S10000x64_1_0_0_1_n_n.lhsNonContracting by decide)]
  rfl
theorem blk0_lhs_1 (i : S10000x64.Idx) (q : dot_S10000x256_S256x64_S10000x64_1_0_0_1_n_n.contr.Idx) :
    (dot_S10000x256_S256x64_S10000x64_1_0_0_1_n_n.lhsIdx i q 1).val = (q ⟨0, by decide⟩).val :=
  dot_S10000x256_S256x64_S10000x64_1_0_0_1_n_n.lhsIdx_val_of_single rfl i q
theorem blk0_rhs_0 (i : S10000x64.Idx) (q : dot_S10000x256_S256x64_S10000x64_1_0_0_1_n_n.contr.Idx) :
    (dot_S10000x256_S256x64_S10000x64_1_0_0_1_n_n.rhsIdx i q 0).val = (q ⟨0, by decide⟩).val :=
  dot_S10000x256_S256x64_S10000x64_1_0_0_1_n_n.rhsIdx_val_of_single rfl i q
theorem blk0_rhs_1 (i : S10000x64.Idx) (q : dot_S10000x256_S256x64_S10000x64_1_0_0_1_n_n.contr.Idx) :
    (dot_S10000x256_S256x64_S10000x64_1_0_0_1_n_n.rhsIdx i q 1).val = (i 1).val := by
  unfold DotDims.rhsIdx
  rw [dif_neg (show ¬(1 : Fin S256x64.rank) ∈ dot_S10000x256_S256x64_S10000x64_1_0_0_1_n_n.rhsBatch by decide), dif_pos (show (1 : Fin S256x64.rank) ∈ dot_S10000x256_S256x64_S10000x64_1_0_0_1_n_n.rhsNonContracting by decide)]
  rfl

/-- Entry (j₀, k) of a left block. -/
abbrev blrow0 (j : S10000x64.Idx) (k : Fin 256) : S10000x256.Idx := fun a => match a with
  | ⟨0, _⟩ => ⟨(j 0).val, (j 0).isLt⟩
  | ⟨1, _⟩ => ⟨k.val, k.isLt⟩
/-- Entry (k, j₁) of the right factor, seen from a block. -/
abbrev brcol0 (j : S10000x64.Idx) (k : Fin 256) : S256x64.Idx := fun a => match a with
  | ⟨0, _⟩ => ⟨k.val, k.isLt⟩
  | ⟨1, _⟩ => ⟨(j 1).val, (j 1).isLt⟩

/-- The body's value at entry j of its block: the matrix product over a zero accumulator is the plain sum over the
    contracted index, the contraction's own index type re-indexed by k < 256. -/
theorem pay0_apply (v0 : Vec Ideal S10000x256 .f32) (v1 : Vec Ideal S256x64 .f32) (j : S10000x64.Idx) :
    k0_pay1 (F := Ideal) v0 v1 j = ∑ k : Fin 256, v0 (blrow0 j k) * v1 (brcol0 j k) := by
  unfold k0_pay1
  simp only [matmul]
  rw [Ideal.matmul_constant_zero_apply, ← Equiv.sum_comp (ValueIdx.contrEquiv1 dot_S10000x256_S256x64_S10000x64_1_0_0_1_n_n 256 rfl rfl).symm]
  refine Finset.sum_congr rfl fun k _ => ?_
  have hk := ValueIdx.contrEquiv1_symm_val dot_S10000x256_S256x64_S10000x64_1_0_0_1_n_n 256 rfl rfl k
  have el : dot_S10000x256_S256x64_S10000x64_1_0_0_1_n_n.lhsIdx j ((ValueIdx.contrEquiv1 dot_S10000x256_S256x64_S10000x64_1_0_0_1_n_n 256 rfl rfl).symm k) = blrow0 j k := funext fun a => Fin.ext (by
    match a with
    | ⟨0, _⟩ => exact blk0_lhs_0 _ _
    | ⟨1, _⟩ => exact (blk0_lhs_1 _ _).trans hk)
  have er : dot_S10000x256_S256x64_S10000x64_1_0_0_1_n_n.rhsIdx j ((ValueIdx.contrEquiv1 dot_S10000x256_S256x64_S10000x64_1_0_0_1_n_n 256 rfl rfl).symm k) = brcol0 j k := funext fun a => Fin.ext (by
    match a with
    | ⟨0, _⟩ => exact (blk0_rhs_0 _ _).trans hk
    | ⟨1, _⟩ => exact blk0_rhs_1 _ _)
  rw [el, er]

/-- The index maps over the grid: the left and the output windows walk the row blocks in step, the right window
    stays on its one block. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row y₀ of the left block at point t is row 10 000 t + y₀ of the left matrix. -/
theorem lblk0_apply (c : Dev nD) (x : (⟨S100000x256, .f32⟩ : BufTy).Contents (Elt Ideal)) (hx : V c main_arg0 = x)
    (t : Fin cfg0.N) (y : S10000x256.Idx) (i : S100000x256.Idx)
    (h0 : (i 0).val = t.val * 10000 + (y 0).val) (h1 : (i 1).val = (y 1).val) :
    (iblk0 V c 0 t : Vec Ideal S10000x256 .f32) y = x i := by
  obtain ⟨e0, e1, -⟩ := idx0 t
  subst hx
  unfold iblk0
  rw [View.read_apply]
  show V c main_arg0 _ = V c main_arg0 _
  congr 1
  funext a
  apply Fin.ext
  match a with
  | ⟨0, _⟩ => show win0_0.index t (0 : Fin 2) * 10000 + 1 * (y 0).val = (i 0).val; rw [e0, h0]; omega
  | ⟨1, _⟩ => show win0_0.index t (1 : Fin 2) * 256 + 1 * (y 1).val = (i 1).val; rw [e1, h1]; omega

/-- The right block at every point is the whole right matrix. -/
theorem rblk0_apply (c : Dev nD) (w : (⟨S256x64, .f32⟩ : BufTy).Contents (Elt Ideal)) (hw : V c main_arg3 = w)
    (t : Fin cfg0.N) (y : S256x64.Idx) (i : S256x64.Idx)
    (h0 : (i 0).val = (y 0).val) (h1 : (i 1).val = (y 1).val) :
    (iblk0 V c 1 t : Vec Ideal S256x64 .f32) y = w i := by
  obtain ⟨-, -, e2, e3, -⟩ := idx0 t
  subst hw
  unfold iblk0
  rw [View.read_apply]
  show V c main_arg3 _ = V c main_arg3 _
  congr 1
  funext a
  apply Fin.ext
  match a with
  | ⟨0, _⟩ => show win0_1.index t (0 : Fin 2) * 256 + 1 * (y 0).val = (i 0).val; rw [e2, h0]; omega
  | ⟨1, _⟩ => show win0_1.index t (1 : Fin 2) * 64 + 1 * (y 1).val = (i 1).val; rw [e3, h1]; omega

/-- The whole product, entry by entry. -/
abbrev prod0 (x : (⟨S100000x256, .f32⟩ : BufTy).Contents (Elt Ideal)) (w : (⟨S256x64, .f32⟩ : BufTy).Contents (Elt Ideal))
    (i : S100000x64.Idx) := ∑ k : Fin 256, x (lrow0 i k) * w (rcol0 i k)

/-- What point t writes back is block t of the whole product: entry j of the block is entry (10 000 t + j₀, j₁) of the
    product, and both are the same sum, the left block's row j₀ being the left matrix's row 10 000 t + j₀. -/
theorem flushed0_eq (c : Dev nD)
    (x : (⟨S100000x256, .f32⟩ : BufTy).Contents (Elt Ideal)) (w : (⟨S256x64, .f32⟩ : BufTy).Contents (Elt Ideal))
    (hx : V c main_arg0 = x) (hw : V c main_arg3 = w) (t : Fin cfg0.N) :
    (dat0 (F := Ideal) V c).flushed 2 t = ((cfg0.win 2).blk t).view.read (Elt Ideal) (prod0 x w) := by
  show (cfg0.win 2).cut (grid0.coords t) ((dat0 V c).after 2 t) = _
  rw [after0_2]
  unfold out0_2
  rw [View.canon_unit_zero origin2]
  simp only [View.ld_unit_zero (S := S10000x256) origin2, View.ld_unit_zero (S := S256x64) origin2]
  obtain ⟨-, -, -, -, e4, e5⟩ := idx0 t
  funext j
  show k0_pay1 (F := Ideal) (iblk0 V c 0 t) (iblk0 V c 1 t) j = prod0 x w (((cfg0.win 2).blk t).view.emb j)
  refine (pay0_apply _ _ j).trans (Finset.sum_congr rfl fun k _ => ?_)
  congr 1
  · refine lblk0_apply V c x hx t _ _ ?_ ?_
    · show win0_2.index t (0 : Fin 2) * 10000 + 1 * (j 0).val = t.val * 10000 + (j 0).val
      rw [e4]; omega
    · rfl
  · refine rblk0_apply V c w hw t _ _ ?_ ?_
    · rfl
    · show win0_2.index t (1 : Fin 2) * 64 + 1 * (j 1).val = (j 1).val
      rw [e5]; omega

/-- An index of the output array is in point t's block iff each coordinate is in the block's range on its axis. -/
theorem mem_oblk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v37).slice (win0_2.rect t)).set ↔ _
  rw [View.set_slice_whole, Rect.mem_set_unit]
  exact Iff.rfl

/-- Row r of the output lies in the block of point r / 10 000. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  refine ⟨⟨(i 0).val / 10000, by rw [hN]; omega⟩, flush0_2 _, ?_⟩
  obtain ⟨-, -, -, -, e4, e5⟩ := idx0 ⟨(i 0).val / 10000, by rw [hN]; omega⟩
  rw [mem_oblk0]
  intro a
  match a with
  | ⟨0, _⟩ => show win0_2.index _ (0 : Fin 2) * 10000 ≤ (i 0).val ∧ (i 0).val < win0_2.index _ (0 : Fin 2) * 10000 + 10000; rw [e4]; show (i 0).val / 10000 * 10000 ≤ (i 0).val ∧ (i 0).val < (i 0).val / 10000 * 10000 + 10000; omega
  | ⟨1, _⟩ => show win0_2.index _ (1 : Fin 2) * 64 ≤ (i 1).val ∧ (i 1).val < win0_2.index _ (1 : Fin 2) * 64 + 64; rw [e5]; omega

/-- Region 0's output array once all ten blocks are written back: the whole product, entry by entry. -/
theorem region0_array (c : Dev nD)
    (x : (⟨S100000x256, .f32⟩ : BufTy).Contents (Elt Ideal)) (w : (⟨S256x64, .f32⟩ : BufTy).Contents (Elt Ideal))
    (hx : V c main_arg0 = x) (hw : V c main_arg3 = w) :
    (dat0 (F := Ideal) V c).arrAt 2 cfg0.N = fun i : S100000x64.Idx => ∑ k : Fin 256, x (lrow0 i k) * w (rcol0 i k) :=
  (dat0 (F := Ideal) V c).arrAt_eq_of_cover 2 _ (fun t _ => flushed0_eq V c x w hx hw t) cover0

/-! ## Layer 2: (100 000 × 64) · (64 × 40) -/

/-- Entry (i₀, k) of the left factor. -/
abbrev lrow1 (i : S100000x40.Idx) (k : Fin 64) : S100000x64.Idx := fun a => match a with
  | ⟨0, _⟩ => ⟨(i 0).val, (i 0).isLt⟩
  | ⟨1, _⟩ => ⟨k.val, k.isLt⟩
/-- Entry (k, i₁) of the right factor. -/
abbrev rcol1 (i : S100000x40.Idx) (k : Fin 64) : S64x40.Idx := fun a => match a with
  | ⟨0, _⟩ => ⟨k.val, k.isLt⟩
  | ⟨1, _⟩ => ⟨(i 1).val, (i 1).isLt⟩

/-- Axis by axis, where the block product reads its factors: row j₀ and the contracted index on the left, the
    contracted index and column j₁ on the right. -/
theorem blk1_lhs_0 (i : S10000x40.Idx) (q : dot_S10000x64_S64x40_S10000x40_1_0_0_1_n_n.contr.Idx) :
    (dot_S10000x64_S64x40_S10000x40_1_0_0_1_n_n.lhsIdx i q 0).val = (i 0).val := by
  unfold DotDims.lhsIdx
  rw [dif_neg (show ¬(0 : Fin S10000x64.rank) ∈ dot_S10000x64_S64x40_S10000x40_1_0_0_1_n_n.lhsBatch by decide), dif_pos (show (0 : Fin S10000x64.rank) ∈ dot_S10000x64_S64x40_S10000x40_1_0_0_1_n_n.lhsNonContracting by decide)]
  rfl
theorem blk1_lhs_1 (i : S10000x40.Idx) (q : dot_S10000x64_S64x40_S10000x40_1_0_0_1_n_n.contr.Idx) :
    (dot_S10000x64_S64x40_S10000x40_1_0_0_1_n_n.lhsIdx i q 1).val = (q ⟨0, by decide⟩).val :=
  dot_S10000x64_S64x40_S10000x40_1_0_0_1_n_n.lhsIdx_val_of_single rfl i q
theorem blk1_rhs_0 (i : S10000x40.Idx) (q : dot_S10000x64_S64x40_S10000x40_1_0_0_1_n_n.contr.Idx) :
    (dot_S10000x64_S64x40_S10000x40_1_0_0_1_n_n.rhsIdx i q 0).val = (q ⟨0, by decide⟩).val :=
  dot_S10000x64_S64x40_S10000x40_1_0_0_1_n_n.rhsIdx_val_of_single rfl i q
theorem blk1_rhs_1 (i : S10000x40.Idx) (q : dot_S10000x64_S64x40_S10000x40_1_0_0_1_n_n.contr.Idx) :
    (dot_S10000x64_S64x40_S10000x40_1_0_0_1_n_n.rhsIdx i q 1).val = (i 1).val := by
  unfold DotDims.rhsIdx
  rw [dif_neg (show ¬(1 : Fin S64x40.rank) ∈ dot_S10000x64_S64x40_S10000x40_1_0_0_1_n_n.rhsBatch by decide), dif_pos (show (1 : Fin S64x40.rank) ∈ dot_S10000x64_S64x40_S10000x40_1_0_0_1_n_n.rhsNonContracting by decide)]
  rfl

/-- Entry (j₀, k) of a left block. -/
abbrev blrow1 (j : S10000x40.Idx) (k : Fin 64) : S10000x64.Idx := fun a => match a with
  | ⟨0, _⟩ => ⟨(j 0).val, (j 0).isLt⟩
  | ⟨1, _⟩ => ⟨k.val, k.isLt⟩
/-- Entry (k, j₁) of the right factor, seen from a block. -/
abbrev brcol1 (j : S10000x40.Idx) (k : Fin 64) : S64x40.Idx := fun a => match a with
  | ⟨0, _⟩ => ⟨k.val, k.isLt⟩
  | ⟨1, _⟩ => ⟨(j 1).val, (j 1).isLt⟩

/-- The body's value at entry j of its block: the matrix product over a zero accumulator is the plain sum over the
    contracted index, the contraction's own index type re-indexed by k < 64. -/
theorem pay1_apply (v0 : Vec Ideal S10000x64 .f32) (v1 : Vec Ideal S64x40 .f32) (j : S10000x40.Idx) :
    k1_pay1 (F := Ideal) v0 v1 j = ∑ k : Fin 64, v0 (blrow1 j k) * v1 (brcol1 j k) := by
  unfold k1_pay1
  simp only [matmul, shapeCast_self]
  rw [Ideal.matmul_constant_zero_apply, ← Equiv.sum_comp (ValueIdx.contrEquiv1 dot_S10000x64_S64x40_S10000x40_1_0_0_1_n_n 64 rfl rfl).symm]
  refine Finset.sum_congr rfl fun k _ => ?_
  have hk := ValueIdx.contrEquiv1_symm_val dot_S10000x64_S64x40_S10000x40_1_0_0_1_n_n 64 rfl rfl k
  have el : dot_S10000x64_S64x40_S10000x40_1_0_0_1_n_n.lhsIdx j ((ValueIdx.contrEquiv1 dot_S10000x64_S64x40_S10000x40_1_0_0_1_n_n 64 rfl rfl).symm k) = blrow1 j k := funext fun a => Fin.ext (by
    match a with
    | ⟨0, _⟩ => exact blk1_lhs_0 _ _
    | ⟨1, _⟩ => exact (blk1_lhs_1 _ _).trans hk)
  have er : dot_S10000x64_S64x40_S10000x40_1_0_0_1_n_n.rhsIdx j ((ValueIdx.contrEquiv1 dot_S10000x64_S64x40_S10000x40_1_0_0_1_n_n 64 rfl rfl).symm k) = brcol1 j k := funext fun a => Fin.ext (by
    match a with
    | ⟨0, _⟩ => exact (blk1_rhs_0 _ _).trans hk
    | ⟨1, _⟩ => exact blk1_rhs_1 _ _)
  rw [el, er]

/-- The index maps over the grid: the left and the output windows walk the row blocks in step, the right window
    stays on its one block. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row y₀ of the left block at point t is row 10 000 t + y₀ of the left matrix. -/
theorem lblk1_apply (c : Dev nD) (x : (⟨S100000x64, .f32⟩ : BufTy).Contents (Elt Ideal)) (hx : V c main_v46 = x)
    (t : Fin cfg1.N) (y : S10000x64.Idx) (i : S100000x64.Idx)
    (h0 : (i 0).val = t.val * 10000 + (y 0).val) (h1 : (i 1).val = (y 1).val) :
    (iblk1 V c 0 t : Vec Ideal S10000x64 .f32) y = x i := by
  obtain ⟨e0, e1, -⟩ := idx1 t
  subst hx
  unfold iblk1
  rw [View.read_apply]
  show V c main_v46 _ = V c main_v46 _
  congr 1
  funext a
  apply Fin.ext
  match a with
  | ⟨0, _⟩ => show win1_0.index t (0 : Fin 2) * 10000 + 1 * (y 0).val = (i 0).val; rw [e0, h0]; omega
  | ⟨1, _⟩ => show win1_0.index t (1 : Fin 2) * 64 + 1 * (y 1).val = (i 1).val; rw [e1, h1]; omega

/-- The right block at every point is the whole right matrix. -/
theorem rblk1_apply (c : Dev nD) (w : (⟨S64x40, .f32⟩ : BufTy).Contents (Elt Ideal)) (hw : V c main_arg5 = w)
    (t : Fin cfg1.N) (y : S64x40.Idx) (i : S64x40.Idx)
    (h0 : (i 0).val = (y 0).val) (h1 : (i 1).val = (y 1).val) :
    (iblk1 V c 1 t : Vec Ideal S64x40 .f32) y = w i := by
  obtain ⟨-, -, e2, e3, -⟩ := idx1 t
  subst hw
  unfold iblk1
  rw [View.read_apply]
  show V c main_arg5 _ = V c main_arg5 _
  congr 1
  funext a
  apply Fin.ext
  match a with
  | ⟨0, _⟩ => show win1_1.index t (0 : Fin 2) * 64 + 1 * (y 0).val = (i 0).val; rw [e2, h0]; omega
  | ⟨1, _⟩ => show win1_1.index t (1 : Fin 2) * 40 + 1 * (y 1).val = (i 1).val; rw [e3, h1]; omega

/-- The whole product, entry by entry. -/
abbrev prod1 (x : (⟨S100000x64, .f32⟩ : BufTy).Contents (Elt Ideal)) (w : (⟨S64x40, .f32⟩ : BufTy).Contents (Elt Ideal))
    (i : S100000x40.Idx) := ∑ k : Fin 64, x (lrow1 i k) * w (rcol1 i k)

/-- What point t writes back is block t of the whole product: entry j of the block is entry (10 000 t + j₀, j₁) of the
    product, and both are the same sum, the left block's row j₀ being the left matrix's row 10 000 t + j₀. -/
theorem flushed1_eq (c : Dev nD)
    (x : (⟨S100000x64, .f32⟩ : BufTy).Contents (Elt Ideal)) (w : (⟨S64x40, .f32⟩ : BufTy).Contents (Elt Ideal))
    (hx : V c main_v46 = x) (hw : V c main_arg5 = w) (t : Fin cfg1.N) :
    (dat1 (F := Ideal) V c).flushed 2 t = ((cfg1.win 2).blk t).view.read (Elt Ideal) (prod1 x w) := by
  show (cfg1.win 2).cut (grid1.coords t) ((dat1 V c).after 2 t) = _
  rw [after1_2]
  unfold out1_2
  rw [View.canon_unit_zero origin2]
  simp only [View.ld_unit_zero (S := S10000x64) origin2, View.ld_unit_zero (S := S64x40) origin2]
  obtain ⟨-, -, -, -, e4, e5⟩ := idx1 t
  funext j
  show k1_pay1 (F := Ideal) (iblk1 V c 0 t) (iblk1 V c 1 t) j = prod1 x w (((cfg1.win 2).blk t).view.emb j)
  refine (pay1_apply _ _ j).trans (Finset.sum_congr rfl fun k _ => ?_)
  congr 1
  · refine lblk1_apply V c x hx t _ _ ?_ ?_
    · show win1_2.index t (0 : Fin 2) * 10000 + 1 * (j 0).val = t.val * 10000 + (j 0).val
      rw [e4]; omega
    · rfl
  · refine rblk1_apply V c w hw t _ _ ?_ ?_
    · rfl
    · show win1_2.index t (1 : Fin 2) * 40 + 1 * (j 1).val = (j 1).val
      rw [e5]; omega

/-- An index of the output array is in point t's block iff each coordinate is in the block's range on its axis. -/
theorem mem_oblk1 (t : Fin cfg1.N) (i : S100000x40.Idx) :
    i ∈ ((cfg1.win 2).blk t).view.set ↔ ∀ a : Fin 2, win1_2.index t a * S10000x40.size a ≤ (i a).val ∧ (i a).val < win1_2.index t a * S10000x40.size a + S10000x40.size a := by
  show i ∈ ((View.whole main_v47).slice (win1_2.rect t)).set ↔ _
  rw [View.set_slice_whole, Rect.mem_set_unit]
  exact Iff.rfl

/-- Row r of the output lies in the block of point r / 10 000. -/
theorem cover1 (i : S100000x40.Idx) : ∃ t : Fin cfg1.N, (cfg1.win 2).flush t = true ∧ i ∈ ((cfg1.win 2).blk t).view.set := by
  have hi0 : (i 0).val < 100000 := (i 0).isLt
  have hi1 : (i 1).val < 40 := (i 1).isLt
  have hN : cfg1.N = 10 := N_1
  refine ⟨⟨(i 0).val / 10000, by rw [hN]; omega⟩, flush1_2 _, ?_⟩
  obtain ⟨-, -, -, -, e4, e5⟩ := idx1 ⟨(i 0).val / 10000, by rw [hN]; omega⟩
  rw [mem_oblk1]
  intro a
  match a with
  | ⟨0, _⟩ => show win1_2.index _ (0 : Fin 2) * 10000 ≤ (i 0).val ∧ (i 0).val < win1_2.index _ (0 : Fin 2) * 10000 + 10000; rw [e4]; show (i 0).val / 10000 * 10000 ≤ (i 0).val ∧ (i 0).val < (i 0).val / 10000 * 10000 + 10000; omega
  | ⟨1, _⟩ => show win1_2.index _ (1 : Fin 2) * 40 ≤ (i 1).val ∧ (i 1).val < win1_2.index _ (1 : Fin 2) * 40 + 40; rw [e5]; omega

/-- Region 1's output array once all ten blocks are written back: the whole product, entry by entry. -/
theorem region1_array (c : Dev nD)
    (x : (⟨S100000x64, .f32⟩ : BufTy).Contents (Elt Ideal)) (w : (⟨S64x40, .f32⟩ : BufTy).Contents (Elt Ideal))
    (hx : V c main_v46 = x) (hw : V c main_arg5 = w) :
    (dat1 (F := Ideal) V c).arrAt 2 cfg1.N = fun i : S100000x40.Idx => ∑ k : Fin 64, x (lrow1 i k) * w (rcol1 i k) :=
  (dat1 (F := Ideal) V c).arrAt_eq_of_cover 2 _ (fun t _ => flushed1_eq V c x w hx hw t) cover1

end Cert.KernelIdeal.BlockProduct

end
-- ==== Proof.LayerBridge.lean ====
/-
  One graph-convolution layer of the kernel's program, with the source rows gathered plainly, is the reference's
  layer, stage for stage. Two spellings differ: the kernel re-lays the coefficient vector as one column by a
  reshape where the reference broadcasts it along a new unit axis — the same column, entry (e, 0) being coefficient
  e either way —, and the gather, scatter and broadcast records of the two programs are separate copies of the same
  literals.
-/
import proofs.«407552_j59596966199899_2_alg».proof.Proof.Gen.ReferenceIdeal.Read
import proofs.«407552_j59596966199899_2_alg».proof.Proof.LayerSpec
import Idealize.ShloMosaic.Lib.Pipeline.Value

noncomputable section

namespace Cert.KernelIdeal.Layers

open Idealize.ShloMosaic Idealize.SL.Sem
open Cert.KernelIdeal Cert.KernelIdeal.Facts₀ Cert.KernelIdeal.Facts
open Cert.ReferenceIdeal.Read (val_main_v3 val_main_v7 val_main_v35 val_main_v36 val_main_v52 val_main_v53 val_main_v69)

variable {F : FTy → Type} [FloatOps F]

/-- A vector of 3 300 000 entries re-laid as a 3 300 000 × 1 column is the vector broadcast along a new unit axis:
    entry (e, 0) is entry e. -/
theorem column_eq {α : Type} (n : S3300000.Idx → α) :
    shapeCast S3300000x1 n shapeCasts_S3300000_S3300000x1
      = broadcastInDim S3300000x1 ![0] bcast_S3300000_S3300000x1_0 n := by
  funext j
  have hj1 : (j 1).val = 0 := by
    have h := (j 1).isLt
    have e : S3300000x1.size 1 = 1 := rfl
    omega
  let k : S3300000.Idx := fun a => match a with
    | ⟨0, _⟩ => ⟨(j 0).val, (j 0).isLt⟩
  have hk0 : (k 0).val = (j 0).val := rfl
  rw [shapeCast_apply n shapeCasts_S3300000_S3300000x1 j k (by
        rw [Shape.rowMajor_val_one, Shape.rowMajor_val_two, hk0, hj1]
        show (j 0).val = (j 0).val * 1 + 0
        omega),
      broadcastInDim_apply ![0] bcast_S3300000_S3300000x1_0 n j k (fun a => by
        match a with
        | ⟨0, _⟩ => rfl)]

/-- The source indices, as the two programs spell them, are one vector. -/
theorem rowOf_eq (x1 : IVec S2x3200000 32) : rowOf x1 = val_main_v3 (F := F) x1 := rfl

/-- The first layer on the projected node table is the reference's hidden node table. -/
theorem layer64_eq (x0 : FVec F S100000x256 .f32) (x1 : IVec S2x3200000 32) (x2 : FVec F S3200000 .f32) (x3 : FVec F S256x64 .f32)
    (x4 : FVec F S64 .f32) :
    layerOf64 (Host.gather gather_S100000x64_S3300000x1_S3300000x64_1_0_n_n_0_1_164 (val_main_v36 x0 x3)
          (edgeCol (wrapIdx (val_main_v3 (F := F) x1))))
        (val_main_v7 (F := F) x1) (shapeCast S3300000x1 (val_main_v35 x1 x2) shapeCasts_S3300000_S3300000x1) x4
      = val_main_v52 x0 x1 x2 x3 x4 := by
  unfold layerOf64
  rw [column_eq]
  rfl

/-- The second layer on the projected hidden table is the reference's result. -/
theorem layer40_eq (x0 : FVec F S100000x256 .f32) (x1 : IVec S2x3200000 32) (x2 : FVec F S3200000 .f32) (x3 : FVec F S256x64 .f32)
    (x4 : FVec F S64 .f32) (x5 : FVec F S64x40 .f32) (x6 : FVec F S40 .f32) :
    layerOf40 (Host.gather gather_S100000x40_S3300000x1_S3300000x40_1_0_n_n_0_1_140 (val_main_v53 x0 x1 x2 x3 x4 x5)
          (edgeCol (wrapIdx (val_main_v3 (F := F) x1))))
        (val_main_v7 (F := F) x1) (shapeCast S3300000x1 (val_main_v35 x1 x2) shapeCasts_S3300000_S3300000x1) x6
      = val_main_v69 x0 x1 x2 x3 x4 x5 x6 := by
  unfold layerOf40
  rw [column_eq]
  rfl

end Cert.KernelIdeal.Layers

end
-- ==== Proof.KernelValue.lean ====
/-
  The kernel program's result, at the exact instance, is the reference's last stage of the same seven arguments,
  provided every source index names a node. Read backwards from the result buffer: the second layer on region 1's
  output; region 1's output is the product of the hidden node table with W2, entry by entry the sum the reference's
  matrix product is; the hidden table is the first layer on region 0's output; region 0's output is the product of
  the features with W1; and the index vectors, the coefficient column and the arguments are what region 0 was
  entered with, which no later segment writes.
-/
import proofs.«407552_j59596966199899_2_alg».proof.Proof.StageEntry
import proofs.«407552_j59596966199899_2_alg».proof.Proof.StageFirst
import proofs.«407552_j59596966199899_2_alg».proof.Proof.StageSecond
import proofs.«407552_j59596966199899_2_alg».proof.Proof.BlockProduct
import proofs.«407552_j59596966199899_2_alg».proof.Proof.LayerBridge

set_option maxRecDepth 16384

noncomputable section

namespace Cert.KernelIdeal.ResultValue

open Idealize.ShloMosaic Idealize.ShloMosaic.TcCoe Idealize.SL.Sem
open Cert.KernelIdeal Cert.KernelIdeal.Gen Cert.KernelIdeal.Layers Cert.KernelIdeal.Stages Cert.KernelIdeal.BlockProduct
open Cert.ReferenceIdeal.Read (val_main_v3 val_main_v7 val_main_v35 val_main_v36 val_main_v52 val_main_v53 val_main_v69
  lidx_main_v36 ridx_main_v36 lidx_main_v53 ridx_main_v53 val_main_v36_apply val_main_v53_apply)

variable (m : (ℓ : Loc nD τ sig) → Buf (Elt Ideal) ℓ) (ρ : Dev nD → PrngReg)

/-- The seven arguments as launched, at their literal types. -/
abbrev feat (c : Dev nD) : FVec Ideal S100000x256 .f32 := m ((c.tc : Thread nD τ).loc main_arg0)
abbrev edges (c : Dev nD) : IVec S2x3200000 32 := m ((c.tc : Thread nD τ).loc main_arg1)
abbrev weights (c : Dev nD) : FVec Ideal S3200000 .f32 := m ((c.tc : Thread nD τ).loc main_arg2)
abbrev w1 (c : Dev nD) : FVec Ideal S256x64 .f32 := m ((c.tc : Thread nD τ).loc main_arg3)
abbrev bias1 (c : Dev nD) : FVec Ideal S64 .f32 := m ((c.tc : Thread nD τ).loc main_arg4)
abbrev w2 (c : Dev nD) : FVec Ideal S64x40 .f32 := m ((c.tc : Thread nD τ).loc main_arg5)
abbrev bias2 (c : Dev nD) : FVec Ideal S40 .f32 := m ((c.tc : Thread nD τ).loc main_arg6)

/-- Region 0's output at its exit is the reference's first matrix product: the same sum over the 256 features. -/
theorem projected (c : Dev nD) :
    W6 m ρ c (Proc.devRef .tc main_v37) = val_main_v36 (feat m c) (w1 m c) := by
  rw [First.exit_out, region0_array (V5 m ρ) c (feat m c) (w1 m c) (entry_arg0 m ρ c) (entry_arg3 m ρ c)]
  funext i
  have hl : ∀ k, lrow0 i k = lidx_main_v36 i k := fun k => funext fun a => match a with
    | ⟨0, _⟩ => rfl
    | ⟨1, _⟩ => rfl
  have hr : ∀ k, rcol0 i k = ridx_main_v36 i k := fun k => funext fun a => match a with
    | ⟨0, _⟩ => rfl
    | ⟨1, _⟩ => rfl
  rw [val_main_v36_apply]
  exact Finset.sum_congr rfl fun k _ => by rw [hl, hr]

/-- The source indices at region 0's exit are the reference's source-index stage. -/
theorem row_at_exit0 (c : Dev nD) : W6 m ρ c (Proc.devRef .tc main_v3) = val_main_v3 (F := Ideal) (edges m c) :=
  (First.exit_keep_main_v3 m ρ c).trans (entry_row m ρ c)

/-- The source indices at region 1's exit are the reference's source-index stage. -/
theorem row_at_exit1 (c : Dev nD) : W9 m ρ c (Proc.devRef .tc main_v3) = val_main_v3 (F := Ideal) (edges m c) :=
  (Second.exit_keep_main_v3 m ρ c).trans ((First.layer_keep_main_v3 m ρ c).trans (row_at_exit0 m ρ c))

/-- The hidden node table at region 1's entry is the reference's. -/
theorem hidden (c : Dev nD) (h : InRange (val_main_v3 (F := Ideal) (edges m c))) :
    W8 m ρ c (Proc.devRef .tc main_v46)
      = val_main_v52 (feat m c) (edges m c) (weights m c) (w1 m c) (bias1 m c) := by
  rw [First.layer_out m ρ c (by rw [row_at_exit0]; exact h), projected, row_at_exit0,
    First.exit_keep_main_v7, First.exit_keep_main_v36, First.exit_keep_main_arg4, entry_col, entry_coef, entry_arg4]
  exact layer64_eq _ _ _ _ _

/-- Region 1's output at its exit is the reference's second matrix product: the same sum over the 64 hidden units. -/
theorem projected2 (c : Dev nD) (h : InRange (val_main_v3 (F := Ideal) (edges m c))) :
    W9 m ρ c (Proc.devRef .tc main_v47)
      = val_main_v53 (feat m c) (edges m c) (weights m c) (w1 m c) (bias1 m c) (w2 m c) := by
  rw [Second.exit_out, region1_array (V8 m ρ) c (val_main_v52 (feat m c) (edges m c) (weights m c) (w1 m c) (bias1 m c)) (w2 m c)
    (hidden m ρ c h)
    ((First.layer_keep_main_arg5 m ρ c).trans ((First.exit_keep_main_arg5 m ρ c).trans (entry_arg5 m ρ c)))]
  funext i
  have hl : ∀ k, lrow1 i k = lidx_main_v53 i k := fun k => funext fun a => match a with
    | ⟨0, _⟩ => rfl
    | ⟨1, _⟩ => rfl
  have hr : ∀ k, rcol1 i k = ridx_main_v53 i k := fun k => funext fun a => match a with
    | ⟨0, _⟩ => rfl
    | ⟨1, _⟩ => rfl
  rw [val_main_v53_apply]
  exact Finset.sum_congr rfl fun k _ => by rw [hl, hr]

/-- The program's result at the last boundary is the reference's last stage. -/
theorem result_value (c : Dev nD) (h : InRange (val_main_v3 (F := Ideal) (edges m c))) :
    W11 m ρ c (Proc.devRef .tc main_v56)
      = val_main_v69 (feat m c) (edges m c) (weights m c) (w1 m c) (bias1 m c) (w2 m c) (bias2 m c) := by
  rw [Second.layer_out m ρ c (by rw [row_at_exit1]; exact h), projected2 m ρ c h, row_at_exit1,
    Second.exit_keep_main_v7, First.layer_keep_main_v7, First.exit_keep_main_v7, entry_col,
    Second.exit_keep_main_v36, First.layer_keep_main_v36, First.exit_keep_main_v36, entry_coef,
    Second.exit_keep_main_arg6, First.layer_keep_main_arg6, First.exit_keep_main_arg6, entry_arg6]
  exact layer40_eq _ _ _ _ _ _ _

end Cert.KernelIdeal.ResultValue

end
-- ==== Proof.lean ====
/-
  The five claims for the two-layer graph convolution (dense projection, gather at the edge sources, scale by the
  symmetric normalisation coefficient, sum into the edge targets, add the bias; twice).

  The two programs compute the same host operations up to three points. (1) The kernel's dense projections are
  pallas regions that multiply ten blocks of 10 000 rows at a time; the reference's are whole matrix products. At the
  exact instance both are, entry by entry, the same finite sum of products. (2) The kernel re-lays the coefficient
  vector as a column by a reshape, the reference by a broadcast along a new unit axis: the same column. (3) The kernel
  gathers the source rows with a masked take, which fills a row with the junk value where the wrapped index falls
  outside 0 … 99 999; the reference gathers with the index clamped. The two agree exactly where every source index
  names a node, which is the one conjunct the precondition adds to the finiteness of the float inputs
  (0 ≤ edge_index[0] < 100 000; the self-loop indices are the nodes' own numbers). No finiteness is used: nothing is
  distributed, cancelled or moved across a sum.

  The frames of the kernel and of its idealization are the generated ones; the reference's frame is its generated
  run with the result dropped; the idealization rewrote nothing, so `preserves` is `True`; `algebraic` takes the
  kernel's run with its result buffer named, the reference's generated run, and the equality of the two results as
  functions of the seven arguments.
-/
import proofs.«407552_j59596966199899_2_alg».proof.Defs
import proofs.«407552_j59596966199899_2_alg».proof.Proof.Gen.Kernel
import proofs.«407552_j59596966199899_2_alg».proof.Proof.Gen.Kernel.Skeleton
import proofs.«407552_j59596966199899_2_alg».proof.Proof.Gen.Kernel.Launch
import proofs.«407552_j59596966199899_2_alg».proof.Proof.Gen.Kernel.Points
import proofs.«407552_j59596966199899_2_alg».proof.Proof.Gen.Kernel.Frame
import proofs.«407552_j59596966199899_2_alg».proof.Proof.Gen.KernelIdeal
import proofs.«407552_j59596966199899_2_alg».proof.Proof.Gen.KernelIdeal.Skeleton
import proofs.«407552_j59596966199899_2_alg».proof.Proof.Gen.KernelIdeal.Launch
import proofs.«407552_j59596966199899_2_alg».proof.Proof.Gen.KernelIdeal.Points
import proofs.«407552_j59596966199899_2_alg».proof.Proof.Gen.KernelIdeal.Frame
import proofs.«407552_j59596966199899_2_alg».proof.Proof.Gen.ReferenceIdeal
import proofs.«407552_j59596966199899_2_alg».proof.Proof.Gen.ReferenceIdeal.Run
import proofs.«407552_j59596966199899_2_alg».proof.Proof.Gen.ReferenceIdeal.Read
import proofs.«407552_j59596966199899_2_alg».proof.Proof.Gen.Pre_finite_inputs
import proofs.«407552_j59596966199899_2_alg».proof.Proof.KernelRun
import proofs.«407552_j59596966199899_2_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the reference's last stage of the shared arguments in their result arrays. -/
theorem algebraic : Cert.algebraic_KernelIdeal_ReferenceIdeal := by
  intro m ρ m' ρ' hpre hagree
  refine ⟨fun c => Cert.KernelIdeal.Gen.W11 m ρ c (Proc.devRef .tc Cert.KernelIdeal.main_v56),
    Cert.KernelIdeal.ValueRun.run_value (F := Ideal) m ρ, ?_⟩
  refine (θ_run Cert.ReferenceIdeal.defs _ _).mono (fun _ h c => ⟨(h c).1.trans ?_, (h c).2⟩)
    (Cert.ReferenceIdeal.Value.run (F := Ideal) m' ρ')
  have hrange : Cert.KernelIdeal.Layers.InRange
      (Cert.ReferenceIdeal.Read.val_main_v3 (F := Ideal) (Cert.KernelIdeal.ResultValue.edges m c)) :=
    Cert.KernelIdeal.Layers.rowOf_eq (F := Ideal) _ ▸ Cert.KernelIdeal.Layers.rowOf_inRange m hpre c
  rw [Cert.ReferenceIdeal.Read.val_main_v69_eq, (hagree c).1, (hagree c).2.1, (hagree c).2.2.1, (hagree c).2.2.2.1,
    (hagree c).2.2.2.2.1, (hagree c).2.2.2.2.2.1, (hagree c).2.2.2.2.2.2]
  exact (Cert.KernelIdeal.ResultValue.result_value m ρ c hrange).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
